-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000x64 : Shape := ⟨2, ![100000, 64]⟩
abbrev S1600000 : Shape := ⟨1, ![1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S100000x64 : S_.BroadcastsInDim S100000x64 (![] : Fin 0 → Fin S100000x64.rank)
  reducesTo_S100000x64_S_d0_1 : S100000x64.ReducesTo [0, 1] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg7 : FVec F S100000x64 .f32) (main_arg8 : IVec S1600000 32) (main_v33 : IVec S_ 1) : IVec S_ 1 :=
  let main_v34 : FVec F S100000x64 .f32 := Host.absf main_arg7
  let main_cst_12 : FVec F S_ .f32 := constant S_ .f32 0x7F800000#32
  let main_v35 : FVec F S100000x64 .f32 := broadcastInDim S100000x64 ![] bcast_S_S100000x64 main_cst_12
  let main_v36 : IVec S100000x64 1 := cmpf .olt main_v34 main_v35
  let main_c_13 : IVec S_ 1 := constantI S_ 1 1#1
  let main_v37 : IVec S_ 1 := (fun x v => Host.reduce IntOp.andi x v reducesTo_S100000x64_S_d0_1 h_S_) main_v36 main_c_13
  let main_v38 : IVec S_ 1 := andi main_v33 main_v37
  let main_c_14 : IVec S_ 32 := constantI S_ 32 4294867296#32
  let main_v39 : IVec S1600000 32 := broadcastInDim S1600000 ![] bcast_S_S1600000 main_c_14
  let main_v40 : IVec S1600000 1 := cmpi .sge main_arg8 main_v39
  let main_c_15 : IVec S_ 32 := constantI S_ 32 100000#32
  let main_v41 : IVec S1600000 32 := broadcastInDim S1600000 ![] bcast_S_S1600000 main_c_15
  let main_v42 : IVec S1600000 1 := cmpi .slt main_arg8 main_v41
  let main_v43 : IVec S1600000 1 := andi main_v40 main_v42
  let main_c_16 : IVec S_ 1 := constantI S_ 1 1#1
  let main_v44 : IVec S_ 1 := (fun x v => Host.reduce IntOp.andi x v reducesTo_S1600000_S_d0 h_S_) main_v43 main_c_16
  let main_v45 : IVec S_ 1 := andi main_v38 main_v44
  main_v45

def fn_part1 {F : FTy → Type} [FloatOps F] (main_arg4 : FVec F S64 .f32) (main_arg5 : FVec F S128x64 .f32) (main_arg6 : FVec F S64 .f32) (main_arg7 : FVec F S100000x64 .f32) (main_arg8 : IVec S1600000 32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S100000x256 .f32) (main_arg1 : FVec F S256x128 .f32) (main_arg2 : FVec F S128 .f32) (main_arg3 : FVec F S128x64 .f32) (main_arg4 : FVec F S64 .f32) (main_arg5 : FVec F S128x64 .f32) (main_arg6 : FVec F S64 .f32) (main_arg7 : FVec F S100000x64 .f32) (main_arg8 : IVec S1600000 32) (main_arg9 : IVec S1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_v13 main_v16
-- ==== Kernel.lean ====
abbrev S100000x256 : Shape := ⟨2, ![100000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000x64 : Shape := ⟨2, ![100000, 64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S1x64 : Shape := ⟨2, ![1, 64]⟩
abbrev S100000x128 : Shape := ⟨2, ![100000, 128]⟩
abbrev S5000x256 : Shape := ⟨2, ![5000, 256]⟩
abbrev S5000x1 : Shape := ⟨2, ![5000, 1]⟩
abbrev S5000x128 : Shape := ⟨2, ![5000, 128]⟩
abbrev S1 : Shape := ⟨1, ![1]⟩
abbrev S1x1 : Shape := ⟨2, ![1, 1]⟩
abbrev S1600000x128 : Shape := ⟨2, ![1600000, 128]⟩
abbrev S128x128 : Shape := ⟨2, ![128, 128]⟩
abbrev S5000x64 : Shape := ⟨2, ![5000, 64]⟩

abbrev nBuf : Space → Nat
  | .hbm => 84
  | .vmem => 23
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S100000x64, .f32⟩
  | .hbm, ⟨8, _⟩ => ⟨S1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S1x128, .f32⟩
  | .hbm, ⟨24, _⟩ => ⟨S1x64, .f32⟩
  | .hbm, ⟨25, _⟩ => ⟨S1x64, .f32⟩
  | .hbm, ⟨26, _⟩ => ⟨S100000x128, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1, .i32⟩
  | .hbm, ⟨36, _⟩ => ⟨S_, .i32⟩
  | .hbm, ⟨37, _⟩ => ⟨S1600000x1, .i32⟩
  | .hbm, ⟨38, _⟩ => ⟨S1600000x1, .i1⟩
  | .hbm, ⟨39, _⟩ => ⟨S1x1, .i32⟩
  | .hbm, ⟨40, _⟩ => ⟨S1600000x1, .i32⟩
  | .hbm, ⟨41, _⟩ => ⟨S1600000x1, .i1⟩
  | .hbm, ⟨42, _⟩ => ⟨S1600000x1, .i1⟩
  | .hbm, ⟨43, _⟩ => ⟨S_, .i1⟩
  | .hbm, ⟨44, _⟩ => ⟨S1600000, .i1⟩
  | .hbm, ⟨45, _⟩ => ⟨S1600000x128, .f32⟩
  | .hbm, ⟨46, _⟩ => ⟨S1600000x128, .i1⟩
  | .hbm, ⟨47, _⟩ => ⟨S_, .f32⟩
  | .hbm, ⟨48, _⟩ => ⟨S1600000x128, .f32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S128x128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1, .i32⟩
  | .hbm, ⟨65, _⟩ => ⟨S_, .i32⟩
  | .hbm, ⟨66, _⟩ => ⟨S1600000x1, .i32⟩
  | .hbm, ⟨67, _⟩ => ⟨S1600000x1, .i1⟩
  | .hbm, ⟨68, _⟩ => ⟨S1x1, .i32⟩
  | .hbm, ⟨69, _⟩ => ⟨S1600000x1, .i32⟩
  | .hbm, ⟨70, _⟩ => ⟨S1600000x1, .i1⟩
  | .hbm, ⟨71, _⟩ => ⟨S1600000x1, .i1⟩
  | .hbm, ⟨72, _⟩ => ⟨S_, .i1⟩
  | .hbm, ⟨73, _⟩ => ⟨S1600000, .i1⟩
  | .hbm, ⟨74, _⟩ => ⟨S1600000x128, .f32⟩
  | .hbm, ⟨75, _⟩ => ⟨S1600000x128, .i1⟩
  | .hbm, ⟨76, _⟩ => ⟨S_, .f32⟩
  | .hbm, ⟨77, _⟩ => ⟨S1600000x128, .f32⟩
  | .hbm, ⟨78, _⟩ => ⟨S1600000x128, .f32⟩
  | .hbm, ⟨79, _⟩ => ⟨S_, .f32⟩
  | .hbm, ⟨80, _⟩ => ⟨S100000x128, .f32⟩
  | .hbm, ⟨81, _⟩ => ⟨S1600000x1, .i32⟩
  | .hbm, ⟨82, _⟩ => ⟨S100000x128, .f32⟩
  | .hbm, ⟨83, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S5000x1, .f32⟩
  | .local _ .vmem, ⟨3, _⟩ => ⟨S5000x1, .f32⟩
  | .local _ .vmem, ⟨4, _⟩ => ⟨S256x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x64, .f32⟩
  | .local _ .vmem, ⟨18, _⟩ => ⟨S1x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_cst : Ref sig .tc := ⟨.hbm, 47, rfl⟩
abbrev main_call0_v15 : Ref sig .tc := ⟨.hbm, 48, rfl⟩
abbrev main_v13 : Ref sig .tc := ⟨.hbm, 49, rfl⟩
abbrev main_cst_3 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_call1_c : Ref sig .tc := ⟨.hbm, 56, rfl⟩
abbrev main_call1_v0 : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_c_1 : Ref sig .tc := ⟨.hbm, 64, rfl⟩
abbrev main_call1_c_2 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_3 : Ref sig .tc := ⟨.hbm, 72, rfl⟩
abbrev main_call1_v12 : Ref sig .tc := ⟨.hbm, 73, rfl⟩
abbrev main_call1_v13 : Ref sig .tc := ⟨.hbm, 74, rfl⟩
abbrev main_call1_v14 : Ref sig .tc := ⟨.hbm, 75, rfl⟩
abbrev main_call1_cst : Ref sig .tc := ⟨.hbm, 76, rfl⟩
abbrev main_call1_v15 : Ref sig .tc := ⟨.hbm, 77, rfl⟩
abbrev main_v19 : Ref sig .tc := ⟨.hbm, 78, rfl⟩
abbrev main_cst_4 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc2_sem4_0 : DmaSem sig := 21
abbrev cc2_sem4_1 : DmaSem sig := 22

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S128_S1x128 : S128.ShapeCasts S1x128
  shapeCasts_S64_S1x64 : S64.ShapeCasts S1x64
  inb_S5000x256_S5000x256_0_0 : ∀ a, (![0, 0] : Fin 2 → Nat) a + S5000x256.size a ≤ S5000x256.size a
  h_S5000x256 : 0 < S5000x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  concatenates_S128x64_S128x64_S128x128_d1 : Shape.Concatenates [S128x64, S128x64] S128x128 1
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S5000x128_o0_0_S5000x64 : S5000x128.Slices ![0, 0] S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S5000x128_o0_64_S5000x64 : S5000x128.Slices ![0, 64] S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v22) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S5000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v23) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x256 : Shape := ⟨2, ![100000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000x64 : Shape := ⟨2, ![100000, 64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S100000x1 : Shape := ⟨2, ![100000, 1]⟩
abbrev S1600000x128 : Shape := ⟨2, ![1600000, 128]⟩
abbrev S1x128 : Shape := ⟨2, ![1, 128]⟩
abbrev S1600000x64 : Shape := ⟨2, ![1600000, 64]⟩
abbrev S1x64 : Shape := ⟨2, ![1, 64]⟩

abbrev nBuf : Space → Nat
  | .hbm => 88
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S100000x64, .f32⟩
  | .hbm, ⟨8, _⟩ => ⟨S1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000x128, .f32⟩
  | .hbm, ⟨23, _⟩ => ⟨S100000x1, .f32⟩
  | .hbm, ⟨24, _⟩ => ⟨S100000x128, .f32⟩
  | .hbm, ⟨25, _⟩ => ⟨S100000x128, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S100000x64, .f32⟩
  | .hbm, ⟨46, _⟩ => ⟨S100000x1, .f32⟩
  | .hbm, ⟨47, _⟩ => ⟨S100000x64, .f32⟩
  | .hbm, ⟨48, _⟩ => ⟨S100000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S100000x1, .f32⟩
  | .hbm, ⟨67, _⟩ => ⟨S100000x64, .f32⟩
  | .hbm, ⟨68, _⟩ => ⟨S100000x64, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x64, .f32⟩
  | .hbm, ⟨78, _⟩ => ⟨S_, .f32⟩
  | .hbm, ⟨79, _⟩ => ⟨S100000x64, .f32⟩
  | .hbm, ⟨80, _⟩ => ⟨S1600000x1, .i32⟩
  | .hbm, ⟨81, _⟩ => ⟨S100000x64, .f32⟩
  | .hbm, ⟨82, _⟩ => ⟨S1x64, .f32⟩
  | .hbm, ⟨83, _⟩ => ⟨S100000x64, .f32⟩
  | .hbm, ⟨84, _⟩ => ⟨S100000x64, .f32⟩
  | .hbm, ⟨85, _⟩ => ⟨S100000x64, .f32⟩
  | .hbm, ⟨86, _⟩ => ⟨S100000x64, .f32⟩
  | .hbm, ⟨87, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call0_cst : Ref sig .tc := ⟨.hbm, 42, rfl⟩
abbrev main_call0_v0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_8 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibPlainMatmul.lean ====
/-
  A plain matrix product read at an index.

  `DotDims.plain M K N` contracts axis 1 of an `M × K` operand with axis 0 of a `K × N` operand, with no batch
  axis. At the ideal values a `tpu.matmul` with these dimension numbers into the zero accumulator is, at
  `(i, j)`, the sum over `k : Fin K` of `l (i, k) * r (k, j)` on the extended reals: the library's sum over the
  contraction shape's indices (`Ideal.matmul_constant_zero_apply`) re-indexed by the one coordinate of that shape
  (`ValueIdx.contrEquiv1`), the operand indices read off the dimension numbers.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The left operand's index at result `j` and contraction coordinate `k` is `(j 0, k)`. -/
theorem plain_lhsIdx (M K N : ℕ) (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at result `j` and contraction coordinate `k` is `(k, j 1)`. -/
theorem plain_rhsIdx (M K N : ℕ) (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- A plain matmul into the zero accumulator, at an index: the sum of the products along the contracted axis. -/
theorem matmul_plain_zero_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

end Cert.Lib

end
-- ==== Proof.LibRowOps.lean ====
/-
  Rows of dense layers read at an index, at the ideal values.

  A dense layer acts on each row of its input by itself: a bias row is added to the row and the positive part taken
  (`reluRow`), and the row is multiplied into a weight matrix (`projRow`). The lemmas here read each of these steps
  at an entry `(r, j)` as one of the two row functions of row `r`: the host's `dot_general` with the plain dimension
  numbers and a `tpu.matmul` into the zero accumulator are the same sum along the contracted axis, a `[1, K]` row
  broadcast down an `[M, K]` array reads the row's entry, and the fused `max (x + b) z` forms are the ones a kernel
  body spells with a shape cast of the block and of the bias row.
-/
import Idealize.ShloMosaic.PureOps.Ideal
import Idealize.ShloMosaic.PureOps.Ideal.Laws
import Idealize.ShloMosaic.Lib.ValueIdx
import Idealize.ShloMosaic.Lib.Pipeline.Value
import proofs.«421277_j6313601925238_1_alg».proof.Proof.LibPlainMatmul

noncomputable section

namespace Cert.Lib

open Idealize.ShloMosaic Idealize.ShloMosaic.ValueIdx

/-- A row `x` of length `K` against the columns of a `[K, N]` matrix: entry `j` is the sum of the products along `k`. -/
def projRow {K N : ℕ} (x : Fin K → EReal) (W : (⟨2, ![K, N]⟩ : Shape).Idx → EReal) : Fin N → EReal :=
  fun j => ∑ k : Fin K, x k * W (ix2 k j)

/-- A row `x` plus the bias row `B` (an array of shape `[1, K]`), each entry then capped below by `z`. -/
def reluRow {K : ℕ} (x : Fin K → EReal) (B : (⟨2, ![1, K]⟩ : Shape).Idx → EReal) (z : EReal) : Fin K → EReal :=
  fun k => max (x k + B (ix2 (0 : Fin 1) k)) z

/-- The host's `dot_general` with the plain dimension numbers, at an index: the same sum along the contracted axis. -/
theorem dotGeneral_plain_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    Host.dotGeneral (DotDims.plain M K N) prec l r j = ∑ k : Fin K, l (ix2 (j 0) k) * r (ix2 k (j 1)) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]
  rfl

/-- The host's plain `dot_general` at `(i, j)`: row `i` of the left operand against the right operand's columns. -/
theorem dotGeneral_rows_apply {M K N : ℕ} (prec : Option ContractPrecision)
    (l : FVec Ideal ⟨2, ![M, K]⟩ .f32) (w : FVec Ideal ⟨2, ![K, N]⟩ .f32) (i : Fin M) (j : Fin N) :
    Host.dotGeneral (DotDims.plain M K N) prec l w (ix2 i j) = projRow (fun k => l (ix2 i k)) w j :=
  dotGeneral_plain_apply M K N prec l w (ix2 i j)

/-- A `[1, K]` row broadcast down the rows of an `[M, K]` array reads, at `(r, k)`, the row's entry `k`. -/
theorem broadcastTo_row_apply {α : Type} {M K : ℕ} (b : (⟨2, ![1, K]⟩ : Shape).Idx → α)
    (h : (⟨2, ![1, K]⟩ : Shape).Broadcasts ⟨2, ![M, K]⟩) (r : Fin M) (k : Fin K) :
    broadcastTo ⟨2, ![M, K]⟩ b h (ix2 r k) = b (ix2 (0 : Fin 1) k) := by
  refine broadcastTo_apply b h (ix2 r k) (ix2 (0 : Fin 1) k) fun ax => ?_
  match ax with
  | ⟨0, _⟩ => rfl
  | ⟨1, _⟩ =>
    show k.val = if K = 1 then 0 else k.val
    split
    · have := k.isLt; omega
    · rfl

/-- A bias row added to every row of a block, then the positive part against the splat `z`, at `(r, k)`. -/
theorem biasRelu_apply {M K : ℕ} (x : FVec Ideal ⟨2, ![M, K]⟩ .f32) (b : FVec Ideal ⟨2, ![1, K]⟩ .f32)
    (h1 : (⟨2, ![M, K]⟩ : Shape).ShapeCasts ⟨2, ![M, K]⟩) (h2 : (⟨2, ![1, K]⟩ : Shape).ShapeCasts ⟨2, ![1, K]⟩)
    (h3 : (⟨2, ![1, K]⟩ : Shape).Broadcasts ⟨2, ![M, K]⟩) (z : Ideal .f32) (r : Fin M) (k : Fin K) :
    maximumf (addf (shapeCast ⟨2, ![M, K]⟩ x h1) (broadcastTo ⟨2, ![M, K]⟩ (shapeCast ⟨2, ![1, K]⟩ b h2) h3))
        (broadcast ⟨2, ![M, K]⟩ z) (ix2 r k)
      = reluRow (fun k => x (ix2 r k)) b z k := by
  rw [maximumf_apply, addf_apply, shapeCast_self, shapeCast_self, broadcast_apply, broadcastTo_row_apply]
  rfl

/-- A matrix product's entry plus the bias row's, then the positive part against the splat `z`, at `(r, j)`. -/
theorem addBiasRelu_apply {M N : ℕ} (y : FVec Ideal ⟨2, ![M, N]⟩ .f32) (b : FVec Ideal ⟨2, ![1, N]⟩ .f32)
    (h2 : (⟨2, ![1, N]⟩ : Shape).ShapeCasts ⟨2, ![1, N]⟩)
    (h3 : (⟨2, ![1, N]⟩ : Shape).Broadcasts ⟨2, ![M, N]⟩) (z : Ideal .f32) (r : Fin M) (j : Fin N) :
    maximumf (addf y (broadcastTo ⟨2, ![M, N]⟩ (shapeCast ⟨2, ![1, N]⟩ b h2) h3))
        (broadcast ⟨2, ![M, N]⟩ z) (ix2 r j)
      = reluRow (fun j => y (ix2 r j)) b z j := by
  rw [maximumf_apply, addf_apply, shapeCast_self, broadcast_apply, broadcastTo_row_apply]
  rfl

/-- A plain matmul into the zero accumulator at `(r, j)`: the row `r` of the left operand against column `j`. -/
theorem matmul_rows_apply {M K N : ℕ} (prec : Option ContractPrecision)
    (l : FVec Ideal ⟨2, ![M, K]⟩ .f32) (w : FVec Ideal ⟨2, ![K, N]⟩ .f32) (r : Fin M) (j : Fin N) :
    FloatOps.matmul (DotDims.plain M K N) prec l w (constant ⟨2, ![M, N]⟩ .f32 0x00000000#32) (ix2 r j)
      = projRow (fun k => l (ix2 r k)) w j :=
  matmul_plain_zero_apply M K N prec l w (ix2 r j)

/-! ## The same steps on whole arrays -/

/-- Every row of an `[M, K]` array plus the bias row, capped below by `z`. -/
def reluArr {M K : ℕ} (A : (⟨2, ![M, K]⟩ : Shape).Idx → EReal) (B : (⟨2, ![1, K]⟩ : Shape).Idx → EReal) (z : EReal) :
    (⟨2, ![M, K]⟩ : Shape).Idx → EReal :=
  fun i => reluRow (fun k => A (ix2 (i 0) k)) B z (i 1)

/-- Every row of an `[M, K]` array against the columns of a `[K, N]` matrix. -/
def projArr {M K N : ℕ} (X : (⟨2, ![M, K]⟩ : Shape).Idx → EReal) (W : (⟨2, ![K, N]⟩ : Shape).Idx → EReal) :
    (⟨2, ![M, N]⟩ : Shape).Idx → EReal :=
  fun i => projRow (fun k => X (ix2 (i 0) k)) W (i 1)

theorem reluArr_apply {M K : ℕ} (A : (⟨2, ![M, K]⟩ : Shape).Idx → EReal) (B : (⟨2, ![1, K]⟩ : Shape).Idx → EReal) (z : EReal)
    (r : Fin M) (k : Fin K) : reluArr A B z (ix2 r k) = reluRow (fun k => A (ix2 r k)) B z k := rfl

theorem projArr_apply {M K N : ℕ} (X : (⟨2, ![M, K]⟩ : Shape).Idx → EReal) (W : (⟨2, ![K, N]⟩ : Shape).Idx → EReal)
    (r : Fin M) (j : Fin N) : projArr X W (ix2 r j) = projRow (fun k => X (ix2 r k)) W j := rfl

/-- A kernel body's fused bias and positive part of a loaded block, as a whole-block function. -/
theorem kernel_biasRelu_eq {M K : ℕ} (x : FVec Ideal ⟨2, ![M, K]⟩ .f32) (b : FVec Ideal ⟨2, ![1, K]⟩ .f32)
    (h1 : (⟨2, ![M, K]⟩ : Shape).ShapeCasts ⟨2, ![M, K]⟩) (h2 : (⟨2, ![1, K]⟩ : Shape).ShapeCasts ⟨2, ![1, K]⟩)
    (h3 : (⟨2, ![1, K]⟩ : Shape).Broadcasts ⟨2, ![M, K]⟩) (z : Ideal .f32) :
    maximumf (addf (shapeCast ⟨2, ![M, K]⟩ x h1) (broadcastTo ⟨2, ![M, K]⟩ (shapeCast ⟨2, ![1, K]⟩ b h2) h3))
        (broadcast ⟨2, ![M, K]⟩ z) = reluArr x b z := by
  funext i
  obtain ⟨r, k, rfl⟩ : ∃ (r : Fin M) (k : Fin K), i = ix2 r k := ⟨i 0, i 1, eq_ix2 i⟩
  exact biasRelu_apply x b h1 h2 h3 z r k

/-- The same on a computed block (a matrix product), which the body does not shape-cast. -/
theorem kernel_addBiasRelu_eq {M N : ℕ} (y : FVec Ideal ⟨2, ![M, N]⟩ .f32) (b : FVec Ideal ⟨2, ![1, N]⟩ .f32)
    (h2 : (⟨2, ![1, N]⟩ : Shape).ShapeCasts ⟨2, ![1, N]⟩)
    (h3 : (⟨2, ![1, N]⟩ : Shape).Broadcasts ⟨2, ![M, N]⟩) (z : Ideal .f32) :
    maximumf (addf y (broadcastTo ⟨2, ![M, N]⟩ (shapeCast ⟨2, ![1, N]⟩ b h2) h3))
        (broadcast ⟨2, ![M, N]⟩ z) = reluArr y b z := by
  funext i
  obtain ⟨r, j, rfl⟩ : ∃ (r : Fin M) (j : Fin N), i = ix2 r j := ⟨i 0, i 1, eq_ix2 i⟩
  exact addBiasRelu_apply y b h2 h3 z r j

/-- A plain matmul into the zero accumulator, as a whole-block function. -/
theorem kernel_matmul_eq {M K N : ℕ} (prec : Option ContractPrecision)
    (l : FVec Ideal ⟨2, ![M, K]⟩ .f32) (w : FVec Ideal ⟨2, ![K, N]⟩ .f32) :
    FloatOps.matmul (DotDims.plain M K N) prec l w (constant ⟨2, ![M, N]⟩ .f32 0x00000000#32) = projArr l w := by
  funext i
  obtain ⟨r, j, rfl⟩ : ∃ (r : Fin M) (j : Fin N), i = ix2 r j := ⟨i 0, i 1, eq_ix2 i⟩
  exact matmul_rows_apply prec l w r j

/-- The host's plain `dot_general`, as a whole-array function. -/
theorem host_dot_eq {M K N : ℕ} (prec : Option ContractPrecision)
    (l : FVec Ideal ⟨2, ![M, K]⟩ .f32) (w : FVec Ideal ⟨2, ![K, N]⟩ .f32) :
    Host.dotGeneral (DotDims.plain M K N) prec l w = projArr l w := by
  funext i
  obtain ⟨r, j, rfl⟩ : ∃ (r : Fin M) (j : Fin N), i = ix2 r j := ⟨i 0, i 1, eq_ix2 i⟩
  exact dotGeneral_rows_apply prec l w r j

/-- The host's bias and positive part: a length-`K` bias broadcast to a row, then down the rows; the positive part
    against the broadcast zero word. The bias row is the bias vector viewed as a `[1, K]` array. -/
theorem host_biasRelu_eq {M K : ℕ} (A : FVec Ideal ⟨2, ![M, K]⟩ .f32) (b : FVec Ideal ⟨1, ![K]⟩ .f32)
    (h1 : (⟨2, ![1, K]⟩ : Shape).BroadcastsInDim ⟨2, ![M, K]⟩ ![0, 1])
    (h2 : (⟨1, ![K]⟩ : Shape).BroadcastsInDim ⟨2, ![1, K]⟩ ![1])
    (h3 : (⟨0, ![]⟩ : Shape).BroadcastsInDim ⟨2, ![M, K]⟩ ![])
    (h4 : (⟨1, ![K]⟩ : Shape).ShapeCasts ⟨2, ![1, K]⟩) (w : BitVec 32) :
    maximumf (addf A (broadcastInDim ⟨2, ![M, K]⟩ ![0, 1] h1 (broadcastInDim ⟨2, ![1, K]⟩ ![1] h2 b)))
        (broadcastInDim ⟨2, ![M, K]⟩ ![] h3 (constant ⟨0, ![]⟩ .f32 w))
      = reluArr A (shapeCast ⟨2, ![1, K]⟩ b h4) (Ideal.ofBits .f32 w) := by
  funext i
  obtain ⟨r, k, rfl⟩ : ∃ (r : Fin M) (k : Fin K), i = ix2 r k := ⟨i 0, i 1, eq_ix2 i⟩
  rw [maximumf_apply, addf_apply, reluArr_apply]
  have e1 : broadcastInDim ⟨2, ![M, K]⟩ ![0, 1] h1 (broadcastInDim ⟨2, ![1, K]⟩ ![1] h2 b) (ix2 r k) = b (ix1 k) := by
    rw [broadcastInDim_apply ![0, 1] h1 _ (ix2 r k) (ix2 (0 : Fin 1) k) (fun ax => by
      match ax with
      | ⟨0, _⟩ => rfl
      | ⟨1, _⟩ =>
        show k.val = if K = 1 then 0 else k.val
        split
        · have := k.isLt; omega
        · rfl)]
    exact broadcastInDim_apply ![1] h2 b (ix2 (0 : Fin 1) k) (ix1 k) (fun ax => by
      match ax with
      | ⟨0, _⟩ =>
        show k.val = if K = 1 then 0 else k.val
        split
        · have := k.isLt; omega
        · rfl)
  have e2 : broadcastInDim ⟨2, ![M, K]⟩ ![] h3 (constant ⟨0, ![]⟩ .f32 w) (ix2 r k) = Ideal.ofBits .f32 w :=
    broadcastInDim_apply ![] h3 _ (ix2 r k) ix0 (fun ax => ax.elim0)
  have e3 : shapeCast ⟨2, ![1, K]⟩ b h4 (ix2 (0 : Fin 1) k) = b (ix1 k) :=
    shapeCast_apply b h4 _ _ (by
      rw [Shape.rowMajor_val_two, Shape.rowMajor_val_one]
      show k.val = 0 * K + k.val
      omega)
  rw [e1, e2]
  show max (A (ix2 r k) + b (ix1 k)) (Ideal.ofBits .f32 w) = max (A (ix2 r k) + shapeCast ⟨2, ![1, K]⟩ b h4 (ix2 (0 : Fin 1) k)) (Ideal.ofBits .f32 w)
  rw [e3]

end Cert.Lib

end
-- ==== Proof.Layers.lean ====
/-
  The three dense steps of the network, as whole-array functions on the extended reals.

  A graph-convolution layer scales each node's feature row by the node's weight (the reciprocal of its clamped
  out-degree) and multiplies by the layer's matrix. Written with the scaling inside the sum over the contracted
  axis, entry `(i, j)` is `∑ k, (X (i, k) * s (i, 0)) * W (k, j)`. The last step splits a `[M, 128]` array into its left
  and right halves of 64 columns, adds a bias row to each, and returns `left + noise * exp right`.
-/
import Idealize.ShloMosaic.PureOps.Ideal
import Idealize.ShloMosaic.Lib.ValueIdx
import proofs.«421277_j6313601925238_1_alg».proof.Proof.LibRowOps

noncomputable section

namespace Cert.Gcn

open Idealize.ShloMosaic Idealize.ShloMosaic.ValueIdx Cert.Lib

/-- Rows scaled by a column of weights, then projected: `∑ k, (X (i, k) * s (i, 0)) * W (k, j)`. -/
def scaledProj {M K N : ℕ} (X : (⟨2, ![M, K]⟩ : Shape).Idx → EReal) (s : (⟨2, ![M, 1]⟩ : Shape).Idx → EReal)
    (W : (⟨2, ![K, N]⟩ : Shape).Idx → EReal) : (⟨2, ![M, N]⟩ : Shape).Idx → EReal :=
  fun i => ∑ k : Fin K, (X (ix2 (i 0) k) * s (ix2 (i 0) (0 : Fin 1))) * W (ix2 k (i 1))

theorem scaledProj_apply {M K N : ℕ} (X : (⟨2, ![M, K]⟩ : Shape).Idx → EReal) (s : (⟨2, ![M, 1]⟩ : Shape).Idx → EReal)
    (W : (⟨2, ![K, N]⟩ : Shape).Idx → EReal) (r : Fin M) (j : Fin N) :
    scaledProj X s W (ix2 r j) = ∑ k : Fin K, (X (ix2 r k) * s (ix2 r (0 : Fin 1))) * W (ix2 k j) := rfl

/-- Column `q` of the left half of 128 columns. -/
def lo (q : Fin 64) : Fin 128 := ⟨q.val, by omega⟩
/-- Column `q` of the right half of 128 columns. -/
def hi (q : Fin 64) : Fin 128 := ⟨64 + q.val, by omega⟩

/-- The reparameterised sample: `(A (i, q) + bm q) + nz (i, q) * exp (A (i, 64 + q) + bl q)`. -/
def reparam {M : ℕ} (A : (⟨2, ![M, 128]⟩ : Shape).Idx → EReal) (bm bl : (⟨2, ![1, 64]⟩ : Shape).Idx → EReal)
    (nz : (⟨2, ![M, 64]⟩ : Shape).Idx → EReal) : (⟨2, ![M, 64]⟩ : Shape).Idx → EReal :=
  fun i => (A (ix2 (i 0) (lo (i 1))) + bm (ix2 (0 : Fin 1) (i 1)))
    + nz (ix2 (i 0) (i 1)) * Ideal.exp (A (ix2 (i 0) (hi (i 1))) + bl (ix2 (0 : Fin 1) (i 1)))

theorem reparam_apply {M : ℕ} (A : (⟨2, ![M, 128]⟩ : Shape).Idx → EReal) (bm bl : (⟨2, ![1, 64]⟩ : Shape).Idx → EReal)
    (nz : (⟨2, ![M, 64]⟩ : Shape).Idx → EReal) (r : Fin M) (q : Fin 64) :
    reparam A bm bl nz (ix2 r q) = (A (ix2 r (lo q)) + bm (ix2 (0 : Fin 1) q))
      + nz (ix2 r q) * Ideal.exp (A (ix2 r (hi q)) + bl (ix2 (0 : Fin 1) q)) := rfl

end Cert.Gcn

end
-- ==== Proof.LibRowLayers.lean ====
/-
  Dense layers row by row: the spellings of this network beyond the positive-part layers.

  The last layer of each of the two networks adds its bias row and takes no positive part (`biasArr`). A kernel body
  narrows both operands of a matrix product to a shorter float format first: on the extended reals narrowing is the
  identity, so the product is still every row of the left operand against the right operand's columns. A kernel body
  broadcasts a bias row it has already made of the bias vector; the host broadcasts the bias vector to a row and the
  row down the rows. Both read the bias vector's entry `k` in column `k`.
-/
import Idealize.ShloMosaic.PureOps.Ideal
import Idealize.ShloMosaic.PureOps.Ideal.Laws
import Idealize.ShloMosaic.Lib.ValueIdx
import Idealize.ShloMosaic.Lib.Pipeline.Value
import proofs.«421277_j6313601925238_1_alg».proof.Proof.LibRowOps

noncomputable section

namespace Cert.Rows

open Idealize.ShloMosaic Idealize.ShloMosaic.ValueIdx Cert.Lib

/-- Every row of an `[M, K]` array plus the bias row. -/
def biasArr {M K : ℕ} (A : (⟨2, ![M, K]⟩ : Shape).Idx → EReal) (B : (⟨2, ![1, K]⟩ : Shape).Idx → EReal) :
    (⟨2, ![M, K]⟩ : Shape).Idx → EReal :=
  fun i => A i + B (ix2 (0 : Fin 1) (i 1))

theorem biasArr_apply {M K : ℕ} (A : (⟨2, ![M, K]⟩ : Shape).Idx → EReal) (B : (⟨2, ![1, K]⟩ : Shape).Idx → EReal)
    (r : Fin M) (k : Fin K) : biasArr A B (ix2 r k) = A (ix2 r k) + B (ix2 (0 : Fin 1) k) := rfl

/-- A product of two operands narrowed to a shorter float format, into the zero accumulator. -/
theorem matmul_narrowed_eq {M K N : ℕ} {ψ₁ ψ₂ : FTy} (prec : Option ContractPrecision)
    (l : FVec Ideal ⟨2, ![M, K]⟩ .f32) (w : FVec Ideal ⟨2, ![K, N]⟩ .f32)
    (h1 : ψ₁.bits < FTy.f32.bits) (h2 : ψ₂.bits < FTy.f32.bits) :
    FloatOps.matmul (DotDims.plain M K N) prec (truncf ψ₁ l h1) (truncf ψ₂ w h2)
        (constant ⟨2, ![M, N]⟩ .f32 0x00000000#32) = projArr l w := by
  funext i
  obtain ⟨r, j, rfl⟩ : ∃ (r : Fin M) (j : Fin N), i = ix2 r j := ⟨i 0, i 1, eq_ix2 i⟩
  rw [matmul_plain_zero_apply]
  rfl

/-- A bias row broadcast down the rows of a block and added, then the positive part against the splat `z`. -/
theorem rowRelu_eq {M N : ℕ} (y : FVec Ideal ⟨2, ![M, N]⟩ .f32) (B : FVec Ideal ⟨2, ![1, N]⟩ .f32)
    (h3 : (⟨2, ![1, N]⟩ : Shape).Broadcasts ⟨2, ![M, N]⟩) (z : Ideal .f32) :
    maximumf (addf y (broadcastTo ⟨2, ![M, N]⟩ B h3)) (broadcast ⟨2, ![M, N]⟩ z) = reluArr y B z := by
  funext i
  obtain ⟨r, j, rfl⟩ : ∃ (r : Fin M) (j : Fin N), i = ix2 r j := ⟨i 0, i 1, eq_ix2 i⟩
  rw [maximumf_apply, addf_apply, broadcast_apply, broadcastTo_row_apply]
  rfl

/-- A bias row broadcast down the rows of a block and added. -/
theorem rowBias_eq {M N : ℕ} (y : FVec Ideal ⟨2, ![M, N]⟩ .f32) (B : FVec Ideal ⟨2, ![1, N]⟩ .f32)
    (h3 : (⟨2, ![1, N]⟩ : Shape).Broadcasts ⟨2, ![M, N]⟩) :
    addf y (broadcastTo ⟨2, ![M, N]⟩ B h3) = biasArr y B := by
  funext i
  obtain ⟨r, j, rfl⟩ : ∃ (r : Fin M) (j : Fin N), i = ix2 r j := ⟨i 0, i 1, eq_ix2 i⟩
  rw [addf_apply, broadcastTo_row_apply]
  rfl

/-- A vector viewed as a one-row array reads the vector's entry `k` in column `k`. -/
theorem rowOfVec_apply {α : Type} {K : ℕ} (b : (⟨1, ![K]⟩ : Shape).Idx → α) (h4 : (⟨1, ![K]⟩ : Shape).ShapeCasts ⟨2, ![1, K]⟩)
    (k : Fin K) : shapeCast ⟨2, ![1, K]⟩ b h4 (ix2 (0 : Fin 1) k) = b (ix1 k) :=
  shapeCast_apply b h4 _ _ (by
    rw [Shape.rowMajor_val_two, Shape.rowMajor_val_one]
    show k.val = 0 * K + k.val
    omega)

/-- The host's bias: a length-`K` bias broadcast to a row, then down the rows, and added. -/
theorem host_bias_eq {M K : ℕ} (A : FVec Ideal ⟨2, ![M, K]⟩ .f32) (b : FVec Ideal ⟨1, ![K]⟩ .f32)
    (h1 : (⟨2, ![1, K]⟩ : Shape).BroadcastsInDim ⟨2, ![M, K]⟩ ![0, 1])
    (h2 : (⟨1, ![K]⟩ : Shape).BroadcastsInDim ⟨2, ![1, K]⟩ ![1])
    (h4 : (⟨1, ![K]⟩ : Shape).ShapeCasts ⟨2, ![1, K]⟩) :
    addf A (broadcastInDim ⟨2, ![M, K]⟩ ![0, 1] h1 (broadcastInDim ⟨2, ![1, K]⟩ ![1] h2 b))
      = biasArr A (shapeCast ⟨2, ![1, K]⟩ b h4) := by
  funext i
  obtain ⟨r, k, rfl⟩ : ∃ (r : Fin M) (k : Fin K), i = ix2 r k := ⟨i 0, i 1, eq_ix2 i⟩
  rw [addf_apply, biasArr_apply, rowOfVec_apply]
  have e1 : broadcastInDim ⟨2, ![M, K]⟩ ![0, 1] h1 (broadcastInDim ⟨2, ![1, K]⟩ ![1] h2 b) (ix2 r k) = b (ix1 k) := by
    rw [broadcastInDim_apply ![0, 1] h1 _ (ix2 r k) (ix2 (0 : Fin 1) k) (fun ax => by
      match ax with
      | ⟨0, _⟩ => rfl
      | ⟨1, _⟩ =>
        show k.val = if K = 1 then 0 else k.val
        split
        · have := k.isLt; omega
        · rfl)]
    exact broadcastInDim_apply ![1] h2 b (ix2 (0 : Fin 1) k) (ix1 k) (fun ax => by
      match ax with
      | ⟨0, _⟩ =>
        show k.val = if K = 1 then 0 else k.val
        split
        · have := k.isLt; omega
        · rfl)
  rw [e1]

end Cert.Rows

end
-- ==== Proof.LibKeepdims.lean ====
/-
  Column vectors made by `keepdims`: a length-`a` vector viewed as an `[a, 1]` column, and such a column broadcast along
  the rows of an `[a, b]` array. Read at an index by coordinates, the column holds the vector's entry of its row, and the
  broadcast holds the column's entry of its row at every position of the row.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.FirstTransform.lean ====
/-
  What the first launch leaves in its output array.

  The launch walks the 100000 rows of its first two operands in 20 blocks of 5000 rows and, at each block, stores
  the block's rows scaled by their own column entry and multiplied into the whole weight matrix. Entry `(r, j)` of a
  block's result is `∑ k, (x (r, k) * s (r, 0)) * W (k, j)`: it reads row `r` of the block only, so the block's result
  is the same rows of the scaled projection of the whole arrays, and the 20 blocks tile the output.
-/
import proofs.«421277_j6313601925238_1_alg».proof.Proof.Gen.KernelIdeal.Frame
import proofs.«421277_j6313601925238_1_alg».proof.Proof.Layers
import proofs.«421277_j6313601925238_1_alg».proof.Proof.LibRowLayers
import proofs.«421277_j6313601925238_1_alg».proof.Proof.LibKeepdims
import Idealize.ShloMosaic.Lib.Pipeline.Value
import Idealize.ShloMosaic.Lib.ValueLayout
import Idealize.ShloMosaic.PureOps.Ideal.Laws

set_option maxRecDepth 16384

noncomputable section

namespace Cert.KernelIdeal.Closed

open Idealize.ShloMosaic Idealize.ShloMosaic.TcCoe Idealize.ShloMosaic.ValueIdx
open Idealize.SL.Sem
open Cert.KernelIdeal Cert.KernelIdeal.Gen Cert.Gcn Cert.Lib

variable (V : (c : Dev nD) → (b : Ref sig .tc) → Buf (Elt Ideal) ((c : Thread nD τ).loc b))

namespace First

/-! ## The body's arithmetic on one block -/

/-- The printed dimension numbers are the plain ones: axis 1 of the left operand against axis 0 of the right. -/
theorem dot_plain : dot_S5000x256_S256x128_S5000x128_1_0_0_1_n_n = DotDims.plain 5000 256 128 := rfl

/-- The body's value on its three loaded blocks: the rows scaled by their column entry, then multiplied into the
    weights. Narrowing to the shorter float format is the identity on the extended reals. -/
theorem body_eq (x0 : Vec Ideal S5000x256 .f32) (x1 : Vec Ideal S5000x1 .f32) (x2 : Vec Ideal S256x128 .f32) :
    k0_pay1 (F := Ideal) x0 x1 x2 = scaledProj x0 x1 x2 := by
  unfold k0_pay1
  dsimp only
  rw [dot_plain]
  refine (Cert.Rows.matmul_narrowed_eq none _ x2 _ _).trans ?_
  funext i
  obtain ⟨r, j, rfl⟩ : ∃ (r : Fin 5000) (j : Fin 128), i = ix2 r j := ⟨i 0, i 1, eq_ix2 i⟩
  rw [projArr_apply, scaledProj_apply]
  unfold projRow
  refine Finset.sum_congr rfl fun k _ => ?_
  beta_reduce
  rw [mulf_apply, broadcastTo_a1_ab_apply, shapeCast_self]

/-- A row of the scaled projection reads that row of the two row operands and the whole weight matrix: if row `r`
    of the small operands is row `R` of the large ones, the two projections agree on it. -/
theorem scaledProj_row {M m K N : ℕ} (A0 : (⟨2, ![M, K]⟩ : Shape).Idx → EReal) (A1 : (⟨2, ![M, 1]⟩ : Shape).Idx → EReal)
    (A2 : (⟨2, ![K, N]⟩ : Shape).Idx → EReal)
    (x0 : (⟨2, ![m, K]⟩ : Shape).Idx → EReal) (x1 : (⟨2, ![m, 1]⟩ : Shape).Idx → EReal)
    (x2 : (⟨2, ![K, N]⟩ : Shape).Idx → EReal) (r : Fin m) (R : Fin M)
    (h0 : ∀ k : Fin K, x0 (ix2 r k) = A0 (ix2 R k))
    (h1 : x1 (ix2 r (0 : Fin 1)) = A1 (ix2 R (0 : Fin 1)))
    (h2 : ∀ (k : Fin K) (j : Fin N), x2 (ix2 k j) = A2 (ix2 k j)) (j : Fin N) :
    scaledProj x0 x1 x2 (ix2 r j) = scaledProj A0 A1 A2 (ix2 R j) := by
  rw [scaledProj_apply, scaledProj_apply]
  refine Finset.sum_congr rfl fun k _ => ?_
  rw [h0, h1, h2]

/-! ## From the blocks to the array -/

/-- The body's one store starts at the origin of its block. -/
theorem origin : (![0, 0] : Fin 2 → Nat) = fun _ => 0 := funext fun a => by fin_cases a <;> rfl

/-- The printed index maps, decided once over the 20 grid points: the two row operands and the output sit at block
    row `t`, column block 0; the weights sit at block (0, 0) at every point. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is rows `5000 t … 5000 t + 4999` of the scaled projection of the arrays the launch
    finds: row `r` of each row operand's block is row `5000 t + r` of its array, and the weights' block is the array. -/
theorem flushed_eq (c : Dev nD) (t : Fin cfg0.N) :
    (dat0 (F := Ideal) V c).flushed 3 t
      = ((cfg0.win 3).blk t).view.read (Elt Ideal) (scaledProj (V c main_arg0) (V c main_v8) (V c main_arg1)) := by
  show (cfg0.win 3).cut (grid0.coords t) ((dat0 V c).after 3 t) = _
  rw [after0_3]
  unfold out0_3
  rw [View.canon_unit_zero origin]
  simp only [View.ld_unit_zero (S := S5000x256) origin, View.ld_unit_zero (S := S5000x1) origin,
    View.ld_unit_zero (S := S256x128) origin]
  rw [body_eq]
  obtain ⟨e00, e01, e10, e11, e20, e21, e30, e31⟩ := block_indices t
  have ht : t.val < 20 := lt_of_lt_of_eq t.isLt N_0
  funext y
  obtain ⟨r, q, rfl⟩ : ∃ (r : Fin 5000) (q : Fin 128), y = ix2 r q := ⟨y 0, y 1, eq_ix2 y⟩
  have hr : r.val < 5000 := r.isLt
  have hR : t.val * 5000 + r.val < 100000 := by omega
  have hemb : ((cfg0.win 3).blk t).view.emb (ix2 r q) = ix2 (⟨t.val * 5000 + r.val, hR⟩ : Fin 100000) q := by
    funext a; apply Fin.ext
    match a with
    | ⟨0, _⟩ => show win0_3.index t (0 : Fin 2) * 5000 + 1 * r.val = t.val * 5000 + r.val; rw [e30]; omega
    | ⟨1, _⟩ => show win0_3.index t (1 : Fin 2) * 128 + 1 * q.val = q.val; rw [e31]; omega
  rw [View.read_apply, hemb]
  refine scaledProj_row (M := 100000) (m := 5000) (K := 256) (N := 128) (V c main_arg0) (V c main_v8) (V c main_arg1)
    (iblk0 V c 0 t) (iblk0 V c 1 t) (iblk0 V c 2 t) r ⟨t.val * 5000 + r.val, hR⟩ (fun k => ?_) ?_ (fun k j => ?_) q
  · unfold iblk0
    rw [View.read_apply]
    show V c main_arg0 (((cfg0.win 0).blk t).view.emb (ix2 r k)) = V c main_arg0 (ix2 _ k)
    refine congrArg _ ?_
    funext a; apply Fin.ext
    match a with
    | ⟨0, _⟩ => show win0_0.index t (0 : Fin 2) * 5000 + 1 * r.val = t.val * 5000 + r.val; rw [e00]; omega
    | ⟨1, _⟩ => show win0_0.index t (1 : Fin 2) * 256 + 1 * k.val = k.val; rw [e01]; omega
  · unfold iblk0
    rw [View.read_apply]
    show V c main_v8 (((cfg0.win 1).blk t).view.emb (ix2 r (0 : Fin 1))) = V c main_v8 (ix2 _ (0 : Fin 1))
    refine congrArg _ ?_
    funext a; apply Fin.ext
    match a with
    | ⟨0, _⟩ => show win0_1.index t (0 : Fin 2) * 5000 + 1 * r.val = t.val * 5000 + r.val; rw [e10]; omega
    | ⟨1, _⟩ => show win0_1.index t (1 : Fin 2) * 1 + 1 * (0 : Fin 1).val = (0 : Fin 1).val; rw [e11]; rfl
  · unfold iblk0
    rw [View.read_apply]
    show V c main_arg1 (((cfg0.win 2).blk t).view.emb (ix2 k j)) = V c main_arg1 (ix2 k j)
    refine congrArg _ ?_
    funext a; apply Fin.ext
    match a with
    | ⟨0, _⟩ => show win0_2.index t (0 : Fin 2) * 256 + 1 * k.val = k.val; rw [e20]; omega
    | ⟨1, _⟩ => show win0_2.index t (1 : Fin 2) * 128 + 1 * j.val = j.val; rw [e21]; omega

/-- An index of the output array is in point `t`'s block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v12).slice (win0_3.rect t)).set ↔ _
  rw [View.set_slice_whole, Rect.mem_set_unit]
  exact Iff.rfl

/-- The 20 blocks tile the output: row `R` lies in the block of point `R / 5000`. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  have hq : (i 0).val / 5000 < cfg0.N := by rw [hN]; omega
  obtain ⟨e00, e01, e10, e11, e20, e21, e30, e31⟩ := block_indices ⟨(i 0).val / 5000, hq⟩
  refine ⟨⟨(i 0).val / 5000, hq⟩, flush0_3 _, ?_⟩
  rw [mem_blk]
  intro a
  match a with
  | ⟨0, _⟩ =>
    show win0_3.index ⟨(i 0).val / 5000, hq⟩ (0 : Fin 2) * 5000 ≤ (i 0).val
      ∧ (i 0).val < win0_3.index ⟨(i 0).val / 5000, hq⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, hq⟩ (1 : Fin 2) * 128 ≤ (i 1).val
      ∧ (i 1).val < win0_3.index ⟨(i 0).val / 5000, hq⟩ (1 : Fin 2) * 128 + 128
    rw [e31]; omega

end First

/-- The output array after the launch is the scaled projection of the arrays the launch finds: every point writes
    back its rows of it, and the points' blocks tile the array. -/
theorem first_final (c : Dev nD) :
    (dat0 (F := Ideal) V c).arrAt 3 cfg0.N = scaledProj (V c main_arg0) (V c main_v8) (V c main_arg1) := by
  exact (dat0 (F := Ideal) V c).arrAt_eq_of_cover 3 _ (fun t _ => First.flushed_eq V c t) First.cover

end Cert.KernelIdeal.Closed

end
-- ==== Proof.SecondTransform.lean ====
/-
  What the second launch leaves in its output array.

  The launch walks the 100000 rows of its input in 20 blocks of 5000 rows. On each block the body adds the bias row to
  every row and takes the positive part, scales every row by the row's entry of the scale column, and multiplies the
  result into the weight matrix. Each of these steps acts on a row by itself, so the block the body writes is the
  same rows of ONE function of the whole arrays, and the 20 blocks tile the output array.
-/
import proofs.«421277_j6313601925238_1_alg».proof.Proof.Gen.KernelIdeal.Frame
import proofs.«421277_j6313601925238_1_alg».proof.Proof.Layers
import proofs.«421277_j6313601925238_1_alg».proof.Proof.LibRowOps
import proofs.«421277_j6313601925238_1_alg».proof.Proof.LibRowLayers
import proofs.«421277_j6313601925238_1_alg».proof.Proof.LibKeepdims
import Idealize.ShloMosaic.Lib.Pipeline.Value
import Idealize.ShloMosaic.Lib.ValueLayout
import Idealize.ShloMosaic.PureOps.Ideal.Laws

set_option maxRecDepth 16384

noncomputable section

namespace Cert.KernelIdeal.Closed

open Idealize.ShloMosaic Idealize.ShloMosaic.TcCoe Idealize.ShloMosaic.ValueIdx
open Idealize.SL.Sem
open Cert.KernelIdeal Cert.KernelIdeal.Gen Cert.Gcn Cert.Lib

variable (V : (c : Dev nD) → (b : Ref sig .tc) → Buf (Elt Ideal) ((c : Thread nD τ).loc b))

namespace Second

/-- The printed dimension numbers of the body's product are the plain ones: rows against columns. -/
theorem dot_eq_plain : dot_S5000x128_S128x128_S5000x128_1_0_0_1_n_n = DotDims.plain 5000 128 128 := rfl

/-- The body's arithmetic on its loaded blocks: the scaled rows of the positive part, against the weight matrix. -/
theorem payload_eq (x0 : Vec Ideal S5000x128 .f32) (x3 : Vec Ideal S1x128 .f32) (x1 : Vec Ideal S5000x1 .f32)
    (x2 : Vec Ideal S128x128 .f32) :
    k1_pay1 (F := Ideal) x0 x3 x1 x2
      = scaledProj (reluArr x0 x3 (Ideal.ofBits .f32 0x00000000#32)) x1 x2 := by
  funext i
  obtain ⟨r, j, rfl⟩ : ∃ (r : Fin 5000) (j : Fin 128), i = ix2 r j := ⟨i 0, i 1, eq_ix2 i⟩
  unfold k1_pay1
  refine (congrFun (Cert.Rows.matmul_narrowed_eq (M := 5000) (K := 128) (N := 128) none _ _
    bitsLt_bf16_f32 bitsLt_bf16_f32) (ix2 r j)).trans ?_
  rw [projArr_apply, scaledProj_apply]
  unfold projRow
  refine Finset.sum_congr rfl fun k _ => ?_
  dsimp only
  rw [mulf_apply, kernel_biasRelu_eq, broadcastTo_a1_ab_apply, shapeCast_self, shapeCast_self]
  rfl

/-- The same steps on a block of rows: when the block `B0`, `B1` holds the rows `e p` of the arrays `A0`, `A1`,
    its result's row `p` is the whole arrays' result's row `e p`, since each step acts on a row by itself. -/
theorem scaledProj_rows {M M' K N : ℕ} (e : Fin M' → Fin M)
    (A0 : (⟨2, ![M, K]⟩ : Shape).Idx → EReal) (A1 : (⟨2, ![M, 1]⟩ : Shape).Idx → EReal)
    (B0 : (⟨2, ![M', K]⟩ : Shape).Idx → EReal) (B1 : (⟨2, ![M', 1]⟩ : Shape).Idx → EReal)
    (b : (⟨2, ![1, K]⟩ : Shape).Idx → EReal) (W : (⟨2, ![K, N]⟩ : Shape).Idx → EReal) (z : EReal)
    (h0 : ∀ (p : Fin M') (k : Fin K), B0 (ix2 p k) = A0 (ix2 (e p) k))
    (h1 : ∀ p : Fin M', B1 (ix2 p (0 : Fin 1)) = A1 (ix2 (e p) (0 : Fin 1))) (p : Fin M') (q : Fin N) :
    scaledProj (reluArr B0 b z) B1 W (ix2 p q) = scaledProj (reluArr A0 b z) A1 W (ix2 (e p) q) := by
  rw [scaledProj_apply, scaledProj_apply]
  refine Finset.sum_congr rfl fun k _ => ?_
  rw [reluArr_apply, reluArr_apply, h1]
  unfold reluRow
  dsimp only
  rw [h0]

/-- The body's loads and its store are of whole staging buffers: their offsets are zero on both axes. -/
theorem zero_offsets : (![0, 0] : Fin 2 → Nat) = fun _ => 0 := funext fun a => by fin_cases a <;> rfl

/-- The printed index maps, decided over the grid: at point `t` the input blocks of rows and the output block are
    block `t` along the rows, and the bias row and the weight matrix are read whole. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `p` of the block of point `t` is row `5000 t + p` of the array. -/
def blockRow (t : Fin cfg1.N) (p : Fin 5000) : Fin 100000 :=
  ⟨t.val * 5000 + p.val, by have ht : t.val < 20 := lt_of_lt_of_eq t.isLt N_1; have hp := p.isLt; omega⟩

/-- The weight matrix's window is the whole matrix at every point. -/
theorem weights_whole (c : Dev nD) (t : Fin cfg1.N) : (iblk1 (F := Ideal) V c 2 t : S128x128.Idx → EReal) = V c main_v17 := by
  obtain ⟨-, -, -, -, e0, e1, -⟩ := index_facts t
  funext y
  unfold iblk1
  rw [View.read_apply]
  show V c main_v17 (((cfg1.win 2).blk t).view.emb y) = V c main_v17 y
  refine congrArg _ (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The bias row's window is the whole row at every point. -/
theorem bias_whole (c : Dev nD) (t : Fin cfg1.N) : (iblk1 (F := Ideal) V c 3 t : S1x128.Idx → EReal) = V c main_v9 := by
  obtain ⟨-, -, -, -, -, -, e0, e1, -⟩ := index_facts t
  funext y
  unfold iblk1
  rw [View.read_apply]
  show V c main_v9 (((cfg1.win 3).blk t).view.emb y) = V c main_v9 y
  refine congrArg _ (funext fun a => Fin.ext ?_)
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- The input's block at point `t` holds the rows `5000 t + p` of the input. -/
theorem input_rows (c : Dev nD) (t : Fin cfg1.N) (p : Fin 5000) (k : Fin 128) :
    (iblk1 (F := Ideal) V c 0 t : S5000x128.Idx → EReal) (ix2 p k) = V c main_v16 (ix2 (blockRow t p) k) := by
  obtain ⟨e0, e1, -⟩ := index_facts t
  unfold iblk1
  rw [View.read_apply]
  show V c main_v16 (((cfg1.win 0).blk t).view.emb (ix2 p k)) = V c main_v16 (ix2 (blockRow t p) k)
  refine congrArg _ (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega

/-- The scale column's block at point `t` holds the rows `5000 t + p` of the column. -/
theorem scale_rows (c : Dev nD) (t : Fin cfg1.N) (p : Fin 5000) :
    (iblk1 (F := Ideal) V c 1 t : S5000x1.Idx → EReal) (ix2 p (0 : Fin 1)) = V c main_v8 (ix2 (blockRow t p) (0 : Fin 1)) := by
  obtain ⟨-, -, e0, e1, -⟩ := index_facts t
  unfold iblk1
  rw [View.read_apply]
  show V c main_v8 (((cfg1.win 1).blk t).view.emb (ix2 p (0 : Fin 1))) = V c main_v8 (ix2 (blockRow t p) (0 : Fin 1))
  refine congrArg _ (funext fun a => Fin.ext ?_)
  match a with
  | ⟨0, _⟩ => show win1_1.index t (0 : Fin 2) * 5000 + 1 * p.val = t.val * 5000 + p.val; rw [e0]; omega
  | ⟨1, _⟩ => show win1_1.index t (1 : Fin 2) * 1 + 1 * 0 = 0; rw [e1]

/-- What point `t` writes back is block `t` of the whole arrays' result. -/
theorem written_block (c : Dev nD) (t : Fin cfg1.N) :
    (dat1 (F := Ideal) V c).flushed 4 t = ((cfg1.win 4).blk t).view.read (Elt Ideal)
      (scaledProj (reluArr (V c main_v16) (V c main_v9) (Ideal.ofBits .f32 0x00000000#32)) (V c main_v8) (V c main_v17)) := by
  show (cfg1.win 4).cut (grid1.coords t) ((dat1 (F := Ideal) V c).after 4 t) = _
  rw [after1_4]
  unfold out1_4
  rw [View.canon_unit_zero zero_offsets]
  simp only [View.ld_unit_zero (S := S5000x128) zero_offsets, View.ld_unit_zero (S := S1x128) zero_offsets,
    View.ld_unit_zero (S := S5000x1) zero_offsets, View.ld_unit_zero (S := S128x128) zero_offsets]
  rw [payload_eq (iblk1 (F := Ideal) V c 0 t) (iblk1 (F := Ideal) V c 3 t) (iblk1 (F := Ideal) V c 1 t) (iblk1 (F := Ideal) V c 2 t),
    weights_whole V c t, bias_whole V c t]
  obtain ⟨-, -, -, -, -, -, -, -, e0, e1⟩ := index_facts t
  refine funext fun (y : S5000x128.Idx) => ?_
  obtain ⟨p, q, rfl⟩ : ∃ (p : Fin 5000) (q : Fin 128), y = ix2 p q := ⟨y 0, y 1, eq_ix2 y⟩
  have hemb : ((cfg1.win 4).blk t).view.emb (ix2 p q) = (ix2 (blockRow t p) q : S100000x128.Idx) := by
    refine funext fun a => Fin.ext ?_
    match a with
    | ⟨0, _⟩ => show win1_4.index t (0 : Fin 2) * 5000 + 1 * p.val = t.val * 5000 + p.val; rw [e0]; omega
    | ⟨1, _⟩ => show win1_4.index t (1 : Fin 2) * 128 + 1 * q.val = q.val; rw [e1]; omega
  show scaledProj (reluArr (iblk1 (F := Ideal) V c 0 t : S5000x128.Idx → EReal) (V c main_v9) (Ideal.ofBits .f32 0x00000000#32))
      (iblk1 (F := Ideal) V c 1 t : S5000x1.Idx → EReal) (V c main_v17) (ix2 p q)
    = scaledProj (reluArr (V c main_v16) (V c main_v9) (Ideal.ofBits .f32 0x00000000#32)) (V c main_v8) (V c main_v17)
      (((cfg1.win 4).blk t).view.emb (ix2 p q))
  rw [hemb]
  exact scaledProj_rows (blockRow t) (V c main_v16) (V c main_v8) _ _ (V c main_v9) (V c main_v17) _
    (input_rows V c t) (scale_rows V c t) p q

/-- An index of the output array is in point `t`'s block iff each coordinate is in the block's range on its axis. -/
theorem mem_block (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v18).slice (win1_4.rect t)).set ↔ _
  rw [View.set_slice_whole, Rect.mem_set_unit]
  exact Iff.rfl

/-- The 20 blocks of 5000 rows tile the output array: row `r` lies in the block of point `r / 5000`. -/
theorem blocks_cover (i : S100000x128.Idx) :
    ∃ t : Fin cfg1.N, (cfg1.win 4).flush t = true ∧ i ∈ ((cfg1.win 4).blk t).view.set := by
  have h0 : (i 0).val < 100000 := (i 0).isLt
  have h1 : (i 1).val < 128 := (i 1).isLt
  have hN : (i 0).val / 5000 < cfg1.N := lt_of_lt_of_eq (by omega : (i 0).val / 5000 < 20) N_1.symm
  refine ⟨⟨(i 0).val / 5000, hN⟩, flush1_4 _, ?_⟩
  obtain ⟨-, -, -, -, -, -, -, -, e0, e1⟩ := index_facts ⟨(i 0).val / 5000, hN⟩
  rw [mem_block]
  intro a
  match a with
  | ⟨0, _⟩ =>
    show win1_4.index ⟨(i 0).val / 5000, hN⟩ (0 : Fin 2) * 5000 ≤ (i 0).val
      ∧ (i 0).val < win1_4.index ⟨(i 0).val / 5000, hN⟩ (0 : Fin 2) * 5000 + 5000
    rw [e0]
    show (i 0).val / 5000 * 5000 ≤ (i 0).val ∧ (i 0).val < (i 0).val / 5000 * 5000 + 5000
    omega
  | ⟨1, _⟩ =>
    show win1_4.index ⟨(i 0).val / 5000, hN⟩ (1 : Fin 2) * 128 ≤ (i 1).val
      ∧ (i 1).val < win1_4.index ⟨(i 0).val / 5000, hN⟩ (1 : Fin 2) * 128 + 128
    rw [e1]
    omega

end Second

theorem second_final (c : Dev nD) :
    (dat1 (F := Ideal) V c).arrAt 4 cfg1.N
      = scaledProj (reluArr (V c main_v16) (V c main_v9) (Ideal.ofBits .f32 0x00000000#32)) (V c main_v8) (V c main_v17) := by
  exact (dat1 (F := Ideal) V c).arrAt_eq_of_cover 4 _ (fun t _ => Second.written_block V c t) Second.blocks_cover

end Cert.KernelIdeal.Closed

end
-- ==== Proof.Combine.lean ====
/-
  What the third launch leaves in its output array.

  The launch walks the 100000 rows of its arrays in 20 blocks of 5000. At each block the body reads the block of the
  128-column array, the two bias rows and the block of the 64-column noise array, and stores, at row r and column q,
  (left half + first bias) + noise * exp (right half + second bias). A block of that function of the whole arrays is
  the same function of their blocks, the output's blocks tile its array, so the array ends holding the function of
  the whole arrays.
-/
import proofs.«421277_j6313601925238_1_alg».proof.Proof.Gen.KernelIdeal.Frame
import proofs.«421277_j6313601925238_1_alg».proof.Proof.Layers
import proofs.«421277_j6313601925238_1_alg».proof.Proof.LibRowOps
import Idealize.ShloMosaic.Lib.Pipeline.Value
import Idealize.ShloMosaic.Lib.ValueLayout
import Idealize.ShloMosaic.PureOps.Ideal.Laws

set_option maxRecDepth 16384

noncomputable section

namespace Cert.KernelIdeal.Closed

open Idealize.ShloMosaic Idealize.ShloMosaic.TcCoe Idealize.ShloMosaic.ValueIdx
open Idealize.SL.Sem
open Cert.KernelIdeal Cert.KernelIdeal.Gen Cert.Gcn Cert.Lib

variable (V : (c : Dev nD) → (b : Ref sig .tc) → Buf (Elt Ideal) ((c : Thread nD τ).loc b))

namespace Third

/-- The offset of a whole block: zero on both axes. -/
theorem zero_off : (![0, 0] : Fin 2 → Nat) = fun _ => 0 :=
  funext fun a => match a with | ⟨0, _⟩ => rfl | ⟨1, _⟩ => rfl

/-- The exponential of a vector of extended reals, at an index, is the extended reals' exponential of the entry. -/
theorem exp_apply {s : Shape} {φ : FTy} (a : FVec Ideal s φ) (i : s.Idx) : exp a i = Ideal.exp (a i) := rfl

/-- The body's arithmetic on one block of rows is `reparam` of the block: at row `r` and column `q` the left half of
    the 128-column block plus the first bias row, plus the noise times the exponential of the right half plus the
    second bias row. -/
theorem payload_eq (x0 : Vec Ideal S5000x128 .f32) (x1 x2 : Vec Ideal S1x64 .f32) (x3 : Vec Ideal S5000x64 .f32) :
    k2_pay1 (F := Ideal) x0 x1 x2 x3 = reparam x0 x1 x2 x3 := by
  funext i
  obtain ⟨r, q, rfl⟩ : ∃ (r : Fin 5000) (q : Fin 64), i = ix2 r q := ⟨i 0, i 1, eq_ix2 i⟩
  rw [reparam_apply]
  unfold k2_pay1
  rw [addf_apply, addf_apply, mulf_apply, exp_apply, addf_apply, shapeCast_self, shapeCast_self, shapeCast_self,
    broadcastTo_row_apply, broadcastTo_row_apply,
    extractStridedSlice_apply ![0, 0] x0 _ (ix2 r q) (ix2 r (lo q)) (fun a => by
      match a with
      | ⟨0, _⟩ => show r.val = 0 + r.val; omega
      | ⟨1, _⟩ => show q.val = 0 + q.val; omega),
    extractStridedSlice_apply ![0, 64] x0 _ (ix2 r q) (ix2 r (hi q)) (fun a => by
      match a with
      | ⟨0, _⟩ => show r.val = 0 + r.val; omega
      | ⟨1, _⟩ => show 64 + q.val = 64 + q.val; rfl)]

/-- `reparam` read on a block of rows: when the rows of `x0` and `x3` are the rows `ρ r` of `A` and `nz`, row `r` of
    `reparam` of the blocks is row `ρ r` of `reparam` of the whole arrays (the bias rows are shared). -/
theorem reparam_rows {M m : ℕ} (A : (⟨2, ![M, 128]⟩ : Shape).Idx → EReal) (bm bl : (⟨2, ![1, 64]⟩ : Shape).Idx → EReal)
    (nz : (⟨2, ![M, 64]⟩ : Shape).Idx → EReal)
    (x0 : (⟨2, ![m, 128]⟩ : Shape).Idx → EReal) (x3 : (⟨2, ![m, 64]⟩ : Shape).Idx → EReal) (ρ : Fin m → Fin M)
    (h0 : ∀ (r : Fin m) (k : Fin 128), x0 (ix2 r k) = A (ix2 (ρ r) k))
    (h3 : ∀ (r : Fin m) (q : Fin 64), x3 (ix2 r q) = nz (ix2 (ρ r) q)) (r : Fin m) (q : Fin 64) :
    reparam x0 bm bl x3 (ix2 r q) = reparam A bm bl nz (ix2 (ρ r) q) := by
  rw [reparam_apply, reparam_apply, h0, h0, h3]

/-- The printed index maps over the 20 points: the three row-blocked windows are at block `(t, 0)`, the two bias rows
    at block `(0, 0)`. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- Row `r` of block `t` is row `5000 t + r` of a 100000-row array. -/
def blockRow (t : Fin cfg2.N) (r : Fin 5000) : Fin 100000 :=
  ⟨t.val * 5000 + r.val, by have ht : t.val < 20 := lt_of_lt_of_eq t.isLt N_2; have hr := r.isLt; omega⟩

/-- What point `t` writes back is block `t` of `reparam` of the arrays the launch finds. -/
theorem flushed_eq (c : Dev nD) (t : Fin cfg2.N) :
    (dat2 (F := Ideal) V c).flushed 4 t
      = ((cfg2.win 4).blk t).view.read (Elt Ideal) (reparam (V c main_v22) (V c main_v10) (V c main_v11) (V c main_arg7)) := by
  show (cfg2.win 4).cut (grid2.coords t) ((dat2 (F := Ideal) V c).after 4 t) = _
  rw [after2_4]
  unfold out2_4
  rw [View.canon_unit_zero zero_off]
  simp only [View.ld_unit_zero (S := S5000x128) zero_off, View.ld_unit_zero (S := S1x64) zero_off,
    View.ld_unit_zero (S := S5000x64) zero_off]
  rw [payload_eq]
  obtain ⟨e0, e1, e2, e3, e4, e5, e6, e7, e8, e9⟩ := index_facts t
  -- the two bias rows: the block is the whole array
  have hb1 : iblk2 V c 1 t = V c main_v10 := by
    funext y
    show V c main_v10 (((cfg2.win 1).blk t).view.emb y) = V c main_v10 y
    congr 1
    funext a; apply Fin.ext
    match a with
    | ⟨0, _⟩ => show win2_1.index t (0 : Fin 2) * 1 + 1 * (y 0).val = (y 0).val; rw [e2]; omega
    | ⟨1, _⟩ => show win2_1.index t (1 : Fin 2) * 64 + 1 * (y 1).val = (y 1).val; rw [e3]; omega
  have hb2 : iblk2 V c 2 t = V c main_v11 := by
    funext y
    show V c main_v11 (((cfg2.win 2).blk t).view.emb y) = V c main_v11 y
    congr 1
    funext a; apply Fin.ext
    match a with
    | ⟨0, _⟩ => show win2_2.index t (0 : Fin 2) * 1 + 1 * (y 0).val = (y 0).val; rw [e4]; omega
    | ⟨1, _⟩ => show win2_2.index t (1 : Fin 2) * 64 + 1 * (y 1).val = (y 1).val; rw [e5]; omega
  rw [hb1, hb2]
  -- the two row-blocked inputs: row `r` of the block is row `5000 t + r` of the array
  have h0 : ∀ (r : Fin 5000) (k : Fin 128), iblk2 V c 0 t (ix2 r k) = V c main_v22 (ix2 (blockRow t r) k) := by
    intro r k
    show V c main_v22 (((cfg2.win 0).blk t).view.emb (ix2 r k)) = V c main_v22 (ix2 (blockRow t r) k)
    congr 1
    funext a; apply Fin.ext
    match a with
    | ⟨0, _⟩ => show win2_0.index t (0 : Fin 2) * 5000 + 1 * r.val = t.val * 5000 + r.val; rw [e0]; omega
    | ⟨1, _⟩ => show win2_0.index t (1 : Fin 2) * 128 + 1 * k.val = k.val; rw [e1]; omega
  have h3 : ∀ (r : Fin 5000) (q : Fin 64), iblk2 V c 3 t (ix2 r q) = V c main_arg7 (ix2 (blockRow t r) q) := by
    intro r q
    show V c main_arg7 (((cfg2.win 3).blk t).view.emb (ix2 r q)) = V c main_arg7 (ix2 (blockRow t r) q)
    congr 1
    funext a; apply Fin.ext
    match a with
    | ⟨0, _⟩ => show win2_3.index t (0 : Fin 2) * 5000 + 1 * r.val = t.val * 5000 + r.val; rw [e6]; omega
    | ⟨1, _⟩ => show win2_3.index t (1 : Fin 2) * 64 + 1 * q.val = q.val; rw [e7]; omega
  -- and the output's block sits on the same rows
  have h4 : ∀ (r : Fin 5000) (q : Fin 64), ((cfg2.win 4).blk t).view.emb (ix2 r q) = ix2 (blockRow t r) q := by
    intro r q
    funext a; apply Fin.ext
    match a with
    | ⟨0, _⟩ => show win2_4.index t (0 : Fin 2) * 5000 + 1 * r.val = t.val * 5000 + r.val; rw [e8]; omega
    | ⟨1, _⟩ => show win2_4.index t (1 : Fin 2) * 64 + 1 * q.val = q.val; rw [e9]; omega
  funext j
  obtain ⟨r, q, rfl⟩ : ∃ (r : Fin 5000) (q : Fin 64), j = ix2 r q := ⟨j 0, j 1, eq_ix2 j⟩
  show reparam (iblk2 V c 0 t) (V c main_v10) (V c main_v11) (iblk2 V c 3 t) (ix2 r q)
    = reparam (V c main_v22) (V c main_v10) (V c main_v11) (V c main_arg7) (((cfg2.win 4).blk t).view.emb (ix2 r q))
  rw [h4]
  exact reparam_rows _ _ _ _ _ _ (blockRow t) h0 h3 r q

/-- An index of the output array is in point `t`'s block iff each coordinate is in the block's range on its axis. -/
theorem mem_block (t : Fin cfg2.N) (i : S100000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v23).slice (win2_4.rect t)).set ↔ _
  rw [View.set_slice_whole, Rect.mem_set_unit]
  exact Iff.rfl

/-- The 20 blocks of 5000 rows tile the 100000 rows: row `ρ` is in the block of point `ρ / 5000`. -/
theorem cover (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  obtain ⟨t, ht⟩ : ∃ t : Fin cfg2.N, t.val = (i 0).val / 5000 :=
    ⟨⟨(i 0).val / 5000, by rw [show cfg2.N = 20 from N_2]; omega⟩, rfl⟩
  obtain ⟨-, -, -, -, -, -, -, -, e8, e9⟩ := index_facts t
  refine ⟨t, flush2_4 t, ?_⟩
  rw [mem_block]
  intro a
  match a with
  | ⟨0, _⟩ =>
    show win2_4.index t (0 : Fin 2) * 5000 ≤ (i 0).val ∧ (i 0).val < win2_4.index t (0 : Fin 2) * 5000 + 5000
    rw [e8, ht]; omega
  | ⟨1, _⟩ =>
    show win2_4.index t (1 : Fin 2) * 64 ≤ (i 1).val ∧ (i 1).val < win2_4.index t (1 : Fin 2) * 64 + 64
    rw [e9]; omega

end Third

theorem combine_final (c : Dev nD) :
    (dat2 (F := Ideal) V c).arrAt 4 cfg2.N = reparam (V c main_v22) (V c main_v10) (V c main_v11) (V c main_arg7) := by
  exact (dat2 (F := Ideal) V c).arrAt_eq_of_cover 4 _ (fun t _ => Third.flushed_eq V c t) Third.cover

end Cert.KernelIdeal.Closed

end
-- ==== Proof.HostChains.lean ====
/-
  The host computations around the three launches, each as one function of the arrays it reads.

  `nodeWeight`: the reciprocal of each node's out-degree clamped below by one. `startRows`: the source node of each
  edge with a negative id wrapped once by the node count, as the one-column start-index array of a row gather.
  `rowsInRange`: per edge, whether that wrapped id lies in `[0, 99999]`. `takeRows`: the row gather, with the rows of
  edges whose id is out of range replaced by the not-a-number pattern. `aggregate`: the scatter-add of the per-edge
  rows into the rows of their destination nodes, from zero.
-/
import proofs.«421277_j6313601925238_1_alg».proof.Proof.Gen.KernelIdeal

set_option maxRecDepth 16384

noncomputable section

namespace Cert.KernelIdeal.Host

open Idealize.ShloMosaic Cert.KernelIdeal
open Cert.KernelIdeal.Facts₀ Cert.KernelIdeal.Facts

variable {F : FTy → Type} [FloatOps F]

def nodeWeight (src : IVec S1600000 32) : FVec F S100000 .f32 :=
  Host.divf (broadcastInDim S100000 ![] bcast_S_S100000 (constant S_ .f32 0x3F800000#32))
    (maximumf (Host.scatterAdd scatter_S100000_S1600000x1_S1600000_n_0_0_1
        (broadcastInDim S100000 ![] bcast_S_S100000 (constant S_ .f32 0x00000000#32))
        (broadcastInDim S1600000x1 ![0] bcast_S1600000_S1600000x1_0 src)
        (broadcastInDim S1600000 ![] bcast_S_S1600000 (constant S_ .f32 0x3F800000#32)))
      (broadcastInDim S100000 ![] bcast_S_S100000 (constant S_ .f32 0x3F800000#32)))

def wrapped (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

def startRows (src : IVec S1600000 32) : IVec S1600000x1 32 :=
  broadcastInDim S1600000x1 ![0] bcast_S1600000_S1600000x1_0 (wrapped src)

def rowsInRange (src : IVec S1600000 32) : IVec S1600000 1 :=
  Host.reduce IntOp.andi
    (andi (cmpi .sge (startRows src) (broadcastInDim S1600000x1 ![] bcast_S_S1600000x1 (constantI S_ 32 0#32)))
      (cmpi .sle (startRows src) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

def takeRows (y : FVec F S100000x128 .f32) (src : IVec S1600000 32) : FVec F S1600000x128 .f32 :=
  select (broadcastInDim S1600000x128 ![0] bcast_S1600000_S1600000x128_0 (rowsInRange src))
    (Host.gather gather_S100000x128_S1600000x1_S1600000x128_1_0_n_n_0_1_1128 y (startRows src))
    (broadcastInDim S1600000x128 ![] bcast_S_S1600000x128 (constant S_ .f32 0x7FC00000#32))

def aggregate (dst : IVec S1600000 32) (msg : FVec F S1600000x128 .f32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst) msg

end Cert.KernelIdeal.Host

end
-- ==== Proof.Boundaries.lean ====
/-
  The contents each launch finds in its operand arrays, read back through the host stretches to the launch
  memory, and the result buffer's final contents as the last launch's output array.

  Each host stretch is read twice: what it leaves alone (every reference outside the list of those it writes), and
  what it computes at a reference it writes, as a composed term over ANY contents at its entry. A buffer is then
  walked back boundary by boundary: across a stretch that does not write it, across a launch of which it is no
  array, or, for an input window's array, across its own launch, which leaves an input as entered.
-/
import proofs.«421277_j6313601925238_1_alg».proof.Proof.Gen.KernelIdeal.Frame
import proofs.«421277_j6313601925238_1_alg».proof.Proof.HostChains
import Idealize.ShloMosaic.Lib.StableHlo.Run

set_option maxRecDepth 16384

noncomputable section

namespace Cert.KernelIdeal.Boundary

open Idealize.ShloMosaic Idealize.ShloMosaic.TcCoe Idealize.SL.Sem
open Cert.KernelIdeal Cert.KernelIdeal.Gen Cert.KernelIdeal.Host

variable {F : FTy → Type} [FloatOps F]
variable (m : (ℓ : Loc nD τ sig) → Buf (Elt F) ℓ) (ρ : Dev nD → PrngReg)

/-! ## What each host stretch writes -/

/-- Every operation of a literal stretch writes a reference of the given list. -/
local macro "stretch_writes" ops:ident : tactic =>
  `(tactic| (simp only [$ops:ident, List.Forall]
             repeat' apply And.intro
             all_goals (simp only [StableHlo.nullary_writes, StableHlo.unary_writes, StableHlo.binary_writes,
               StableHlo.ternary_writes, StableHlo.reshape_writes, Finset.singleton_subset_iff, List.mem_toFinset]
                        exact List.mem_map_of_mem (by decide))))

/-- The references the stretch before the first launch writes. -/
abbrev written0 : List (Ref sig .tc) :=
  [main_cst, main_v0, main_cst_0, main_v1, main_v2, main_v3, main_cst_1, main_v4, main_v5, main_cst_2, main_v6, main_v7,
    main_v8, main_v9, main_v10, main_v11]
theorem writes0 : (hostOps0 : List (HloOp τ sig (Elt F))).Forall fun op =>
    op.writes ⊆ (written0.map (Proc.devRef (τ := τ) .tc)).toFinset := by
  stretch_writes hostOps0
theorem keeps0 (W : Valuation τ sig (Elt F)) (r : Ref sig .tc) (h : r ∉ written0) :
    StableHlo.after hostOps0 W (Proc.devRef .tc r) = W (Proc.devRef .tc r) :=
  StableHlo.after_of_writes_sub hostOps0 _ writes0 h

/-- The references the first masked row take writes. -/
abbrev written1 : List (Ref sig .tc) :=
  [main_call0_c, main_call0_v0, main_call0_v1, main_call0_c_0, main_call0_v2, main_call0_v3, main_call0_v4, main_call0_v5,
    main_call0_c_1, main_call0_c_2, main_call0_v6, main_call0_v7, main_call0_v8, main_call0_v9, main_call0_v10,
    main_call0_v11, main_call0_c_3, main_call0_v12, main_call0_v13, main_call0_v14, main_call0_cst, main_call0_v15, main_v13]
theorem writes1 : (hostOps1 : List (HloOp τ sig (Elt F))).Forall fun op =>
    op.writes ⊆ (written1.map (Proc.devRef (τ := τ) .tc)).toFinset := by
  stretch_writes hostOps1
theorem keeps1 (W : Valuation τ sig (Elt F)) (r : Ref sig .tc) (h : r ∉ written1) :
    StableHlo.after hostOps1 W (Proc.devRef .tc r) = W (Proc.devRef .tc r) :=
  StableHlo.after_of_writes_sub hostOps1 _ writes1 h

/-- The references the stretch before the second launch writes. -/
abbrev written1_1 : List (Ref sig .tc) := [main_cst_3, main_v14, main_v15, main_v16, main_v17]
theorem writes1_1 : (hostOps1_1 : List (HloOp τ sig (Elt F))).Forall fun op =>
    op.writes ⊆ (written1_1.map (Proc.devRef (τ := τ) .tc)).toFinset := by
  stretch_writes hostOps1_1
theorem keeps1_1 (W : Valuation τ sig (Elt F)) (r : Ref sig .tc) (h : r ∉ written1_1) :
    StableHlo.after hostOps1_1 W (Proc.devRef .tc r) = W (Proc.devRef .tc r) :=
  StableHlo.after_of_writes_sub hostOps1_1 _ writes1_1 h

/-- The references the second masked row take writes. -/
abbrev written2 : List (Ref sig .tc) :=
  [main_call1_c, main_call1_v0, main_call1_v1, main_call1_c_0, main_call1_v2, main_call1_v3, main_call1_v4, main_call1_v5,
    main_call1_c_1, main_call1_c_2, main_call1_v6, main_call1_v7, main_call1_v8, main_call1_v9, main_call1_v10,
    main_call1_v11, main_call1_c_3, main_call1_v12, main_call1_v13, main_call1_v14, main_call1_cst, main_call1_v15, main_v19]
theorem writes2 : (hostOps2 : List (HloOp τ sig (Elt F))).Forall fun op =>
    op.writes ⊆ (written2.map (Proc.devRef (τ := τ) .tc)).toFinset := by
  stretch_writes hostOps2
theorem keeps2 (W : Valuation τ sig (Elt F)) (r : Ref sig .tc) (h : r ∉ written2) :
    StableHlo.after hostOps2 W (Proc.devRef .tc r) = W (Proc.devRef .tc r) :=
  StableHlo.after_of_writes_sub hostOps2 _ writes2 h

/-- The references the stretch before the third launch writes. -/
abbrev written2_1 : List (Ref sig .tc) := [main_cst_4, main_v20, main_v21, main_v22]
theorem writes2_1 : (hostOps2_1 : List (HloOp τ sig (Elt F))).Forall fun op =>
    op.writes ⊆ (written2_1.map (Proc.devRef (τ := τ) .tc)).toFinset := by
  stretch_writes hostOps2_1
theorem keeps2_1 (W : Valuation τ sig (Elt F)) (r : Ref sig .tc) (h : r ∉ written2_1) :
    StableHlo.after hostOps2_1 W (Proc.devRef .tc r) = W (Proc.devRef .tc r) :=
  StableHlo.after_of_writes_sub hostOps2_1 _ writes2_1 h

/-! ## What each host stretch computes, over any contents at its entry -/

section Results
variable (W : Valuation τ sig (Elt F))

theorem weight_of :
    StableHlo.after hostOps0 W (Proc.devRef .tc main_v8)
      = shapeCast S100000x1 (nodeWeight (F := F) (W (Proc.devRef .tc main_arg8))) shapeCasts_S100000_S100000x1 := by
  after_results; rfl

theorem bias_of :
    StableHlo.after hostOps0 W (Proc.devRef .tc main_v9)
      = shapeCast S1x128 (W (Proc.devRef .tc main_arg2)) shapeCasts_S128_S1x128 := by
  after_results; rfl

theorem biasLeft_of :
    StableHlo.after hostOps0 W (Proc.devRef .tc main_v10)
      = shapeCast S1x64 (W (Proc.devRef .tc main_arg4)) shapeCasts_S64_S1x64 := by
  after_results; rfl

theorem biasRight_of :
    StableHlo.after hostOps0 W (Proc.devRef .tc main_v11)
      = shapeCast S1x64 (W (Proc.devRef .tc main_arg6)) shapeCasts_S64_S1x64 := by
  after_results; rfl

theorem matrix_of :
    StableHlo.after hostOps1_1 W (Proc.devRef .tc main_v17)
      = concatenate S128x128 1 [⟨S128x64, W (Proc.devRef .tc main_arg3)⟩, ⟨S128x64, W (Proc.devRef .tc main_arg5)⟩]
          concatenates_S128x64_S128x64_S128x128_d1 := by
  after_results

theorem agg1_of :
    StableHlo.after hostOps1_1 W (Proc.devRef .tc main_v16)
      = aggregate (W (Proc.devRef .tc main_arg9)) (W (Proc.devRef .tc main_v13)) := by
  after_results; rfl

theorem agg2_of :
    StableHlo.after hostOps2_1 W (Proc.devRef .tc main_v22)
      = aggregate (W (Proc.devRef .tc main_arg9)) (W (Proc.devRef .tc main_v19)) := by
  after_results; rfl

end Results

/-! ## The typed references' transports

A function of a module-local call is stated over typed references, its operands moved along the references' type
equations: the two transports at one reference cancel, and at a literal reference each is the identity. -/

theorem ofBuf_toBuf {Val : EltTy → Type} {T : BufTy} (x : StableHlo.TRef sig T) (v : T.Contents Val) :
    x.ofBuf (x.toBuf v) = v := by
  obtain ⟨r, h, hd, hu⟩ := x
  subst h
  rfl

section Takes
variable (W : Valuation τ sig (Elt F))

theorem ofBuf_source :
    StableHlo.TRef.ofBuf (.of main_arg8 : StableHlo.TRef sig ⟨S1600000, .i32⟩) (W (Proc.devRef .tc main_arg8))
      = W (Proc.devRef .tc main_arg8) := rfl
theorem ofBuf_first :
    StableHlo.TRef.ofBuf (.of main_v12 : StableHlo.TRef sig ⟨S100000x128, .f32⟩) (W (Proc.devRef .tc main_v12))
      = W (Proc.devRef .tc main_v12) := rfl
theorem ofBuf_second :
    StableHlo.TRef.ofBuf (.of main_v18 : StableHlo.TRef sig ⟨S100000x128, .f32⟩) (W (Proc.devRef .tc main_v18))
      = W (Proc.devRef .tc main_v18) := rfl
theorem toBuf_taken1 (y : FVec F S1600000x128 .f32) :
    StableHlo.TRef.toBuf (Val := Elt F) (.of main_v13 : StableHlo.TRef sig ⟨S1600000x128, .f32⟩) y = y := rfl
theorem toBuf_taken2 (y : FVec F S1600000x128 .f32) :
    StableHlo.TRef.toBuf (Val := Elt F) (.of main_v19 : StableHlo.TRef sig ⟨S1600000x128, .f32⟩) y = y := rfl

theorem take1_of :
    StableHlo.after hostOps1 W (Proc.devRef .tc main_v13)
      = takeRows (W (Proc.devRef .tc main_v12)) (W (Proc.devRef .tc main_arg8)) := by
  after_results_simp
  simp only [ofBuf_toBuf]
  rw [ofBuf_source, ofBuf_first]
  exact (toBuf_taken1 _).trans rfl

theorem take2_of :
    StableHlo.after hostOps2 W (Proc.devRef .tc main_v19)
      = takeRows (W (Proc.devRef .tc main_v18)) (W (Proc.devRef .tc main_arg8)) := by
  after_results_simp
  simp only [ofBuf_toBuf]
  rw [ofBuf_source, ofBuf_second]
  exact (toBuf_taken2 _).trans rfl

end Takes

/-! ## Walking a buffer back through the run -/

/-- At the first launch's entry, a buffer the stretch before it does not write holds its launch contents. -/
theorem W1_launch (c : Dev nD) (b : Ref sig .tc) (h0 : b ∉ written0) :
    W1 m ρ c (Proc.devRef .tc b) = m ((c.tc : Thread nD τ).loc b) :=
  (keeps0 _ b h0).trans rfl

/-- From the first launch's entry to the second's: a buffer that is no array of the first launch and that the two
    stretches between do not write is unchanged. -/
theorem W3_eq_W1 (c : Dev nD) (b : Ref sig .tc) (ha : ∀ w, Pipeline.arrRef spec0 w ≠ b) (h1 : b ∉ written1) :
    W3 m ρ c (Proc.devRef .tc b) = W1 m ρ c (Proc.devRef .tc b) :=
  (keeps1 _ b h1).trans (W2_of_ne m ρ c b ha)
theorem W4_eq_W1 (c : Dev nD) (b : Ref sig .tc) (ha : ∀ w, Pipeline.arrRef spec0 w ≠ b) (h1 : b ∉ written1)
    (h11 : b ∉ written1_1) : W4 m ρ c (Proc.devRef .tc b) = W1 m ρ c (Proc.devRef .tc b) :=
  (keeps1_1 _ b h11).trans (W3_eq_W1 m ρ c b ha h1)

/-- From the second launch's entry to the third's, likewise. -/
theorem W6_eq_W4 (c : Dev nD) (b : Ref sig .tc) (ha : ∀ w, Pipeline.arrRef spec1 w ≠ b) (h2 : b ∉ written2) :
    W6 m ρ c (Proc.devRef .tc b) = W4 m ρ c (Proc.devRef .tc b) :=
  (keeps2 _ b h2).trans (W5_of_ne m ρ c b ha)
theorem W7_eq_W4 (c : Dev nD) (b : Ref sig .tc) (ha : ∀ w, Pipeline.arrRef spec1 w ≠ b) (h2 : b ∉ written2)
    (h21 : b ∉ written2_1) : W7 m ρ c (Proc.devRef .tc b) = W4 m ρ c (Proc.devRef .tc b) :=
  (keeps2_1 _ b h21).trans (W6_eq_W4 m ρ c b ha h2)

/-- The source ids, the destination ids and the two halves of the second matrix stay at their launch contents. -/
theorem W2_source (c : Dev nD) : W2 m ρ c (Proc.devRef .tc main_arg8) = m ((c.tc : Thread nD τ).loc main_arg8) :=
  (W2_of_ne m ρ c main_arg8 (by decide)).trans (W1_launch m ρ c main_arg8 (by decide))
theorem W5_source (c : Dev nD) : W5 m ρ c (Proc.devRef .tc main_arg8) = m ((c.tc : Thread nD τ).loc main_arg8) :=
  (W5_of_ne m ρ c main_arg8 (by decide)).trans
    ((W4_eq_W1 m ρ c main_arg8 (by decide) (by decide) (by decide)).trans (W1_launch m ρ c main_arg8 (by decide)))
theorem W3_dest (c : Dev nD) : W3 m ρ c (Proc.devRef .tc main_arg9) = m ((c.tc : Thread nD τ).loc main_arg9) :=
  (W3_eq_W1 m ρ c main_arg9 (by decide) (by decide)).trans (W1_launch m ρ c main_arg9 (by decide))
theorem W6_dest (c : Dev nD) : W6 m ρ c (Proc.devRef .tc main_arg9) = m ((c.tc : Thread nD τ).loc main_arg9) :=
  (W6_eq_W4 m ρ c main_arg9 (by decide) (by decide)).trans
    ((W4_eq_W1 m ρ c main_arg9 (by decide) (by decide) (by decide)).trans (W1_launch m ρ c main_arg9 (by decide)))
theorem W3_left (c : Dev nD) : W3 m ρ c (Proc.devRef .tc main_arg3) = m ((c.tc : Thread nD τ).loc main_arg3) :=
  (W3_eq_W1 m ρ c main_arg3 (by decide) (by decide)).trans (W1_launch m ρ c main_arg3 (by decide))
theorem W3_right (c : Dev nD) : W3 m ρ c (Proc.devRef .tc main_arg5) = m ((c.tc : Thread nD τ).loc main_arg5) :=
  (W3_eq_W1 m ρ c main_arg5 (by decide) (by decide)).trans (W1_launch m ρ c main_arg5 (by decide))

/-! ## The first launch's operands -/

theorem entry0_feat (c : Dev nD) : V1 m ρ c main_arg0 = m ((c.tc : Thread nD τ).loc main_arg0) :=
  W1_launch m ρ c main_arg0 (by decide)

theorem entry0_weight (c : Dev nD) :
    V1 m ρ c main_v8 = shapeCast S100000x1 (nodeWeight (F := F) (m ((c.tc : Thread nD τ).loc main_arg8))) shapeCasts_S100000_S100000x1 :=
  weight_of (W0 m ρ c)

theorem entry0_matrix (c : Dev nD) : V1 m ρ c main_arg1 = m ((c.tc : Thread nD τ).loc main_arg1) :=
  W1_launch m ρ c main_arg1 (by decide)

/-! ## The second launch's operands -/

theorem entry1_agg (c : Dev nD) :
    V4 m ρ c main_v16 = aggregate (m ((c.tc : Thread nD τ).loc main_arg9))
      (takeRows ((dat0 (V1 m ρ) c).arrAt 3 cfg0.N) (m ((c.tc : Thread nD τ).loc main_arg8))) :=
  (agg1_of (W3 m ρ c)).trans (congrArg₂ (aggregate (F := F)) (W3_dest m ρ c)
    ((take1_of (W2 m ρ c)).trans (congrArg₂ (takeRows (F := F)) (W2_arr m ρ c 3) (W2_source m ρ c))))

theorem entry1_weight (c : Dev nD) :
    V4 m ρ c main_v8 = shapeCast S100000x1 (nodeWeight (F := F) (m ((c.tc : Thread nD τ).loc main_arg8))) shapeCasts_S100000_S100000x1 :=
  (keeps1_1 _ main_v8 (by decide)).trans ((keeps1 _ main_v8 (by decide)).trans ((W2_arr m ρ c 1).trans
    ((((dat0 (V1 m ρ) c).arrAt_in 1 rfl _).trans (A_eq0 (V1 m ρ) c 1)).trans (entry0_weight m ρ c))))

theorem entry1_matrix (c : Dev nD) :
    V4 m ρ c main_v17 = concatenate S128x128 1 [⟨S128x64, m ((c.tc : Thread nD τ).loc main_arg3)⟩, ⟨S128x64, m ((c.tc : Thread nD τ).loc main_arg5)⟩]
      concatenates_S128x64_S128x64_S128x128_d1 := by
  refine (matrix_of (W3 m ρ c)).trans ?_
  rw [W3_left m ρ c, W3_right m ρ c]

theorem entry1_bias (c : Dev nD) :
    V4 m ρ c main_v9 = shapeCast S1x128 (m ((c.tc : Thread nD τ).loc main_arg2)) shapeCasts_S128_S1x128 :=
  (W4_eq_W1 m ρ c main_v9 (by decide) (by decide) (by decide)).trans (bias_of (W0 m ρ c))

/-! ## The third launch's operands -/

theorem entry2_agg (c : Dev nD) :
    V7 m ρ c main_v22 = aggregate (m ((c.tc : Thread nD τ).loc main_arg9))
      (takeRows ((dat1 (V4 m ρ) c).arrAt 4 cfg1.N) (m ((c.tc : Thread nD τ).loc main_arg8))) :=
  (agg2_of (W6 m ρ c)).trans (congrArg₂ (aggregate (F := F)) (W6_dest m ρ c)
    ((take2_of (W5 m ρ c)).trans (congrArg₂ (takeRows (F := F)) (W5_arr m ρ c 4) (W5_source m ρ c))))

theorem entry2_biasLeft (c : Dev nD) :
    V7 m ρ c main_v10 = shapeCast S1x64 (m ((c.tc : Thread nD τ).loc main_arg4)) shapeCasts_S64_S1x64 :=
  (W7_eq_W4 m ρ c main_v10 (by decide) (by decide) (by decide)).trans
    ((W4_eq_W1 m ρ c main_v10 (by decide) (by decide) (by decide)).trans (biasLeft_of (W0 m ρ c)))

theorem entry2_biasRight (c : Dev nD) :
    V7 m ρ c main_v11 = shapeCast S1x64 (m ((c.tc : Thread nD τ).loc main_arg6)) shapeCasts_S64_S1x64 :=
  (W7_eq_W4 m ρ c main_v11 (by decide) (by decide) (by decide)).trans
    ((W4_eq_W1 m ρ c main_v11 (by decide) (by decide) (by decide)).trans (biasRight_of (W0 m ρ c)))

theorem entry2_noise (c : Dev nD) : V7 m ρ c main_arg7 = m ((c.tc : Thread nD τ).loc main_arg7) :=
  (W7_eq_W4 m ρ c main_arg7 (by decide) (by decide) (by decide)).trans
    ((W4_eq_W1 m ρ c main_arg7 (by decide) (by decide) (by decide)).trans (W1_launch m ρ c main_arg7 (by decide)))

/-! ## The result -/

theorem result_eq (c : Dev nD) : W8 m ρ c (Proc.devRef .tc main_v23) = (dat2 (V7 m ρ) c).arrAt 4 cfg2.N :=
  W8_arr m ρ c 4

end Cert.KernelIdeal.Boundary

end
-- ==== Proof.IndexRange.lean ====
/-
  The source ids' range, and what it gives the row take.

  The precondition's last conjunct says that every edge's source id, read signed, lies in `[-100000, 100000)`. A
  negative id is wrapped once by the node count, so the wrapped id lies in `[0, 99999]`; the take's range test is then
  true at every edge, no gathered row is replaced, and the masked take is the plain row gather.
-/
import proofs.«421277_j6313601925238_1_alg».proof.Defs
import proofs.«421277_j6313601925238_1_alg».proof.Proof.Gen.KernelIdeal
import proofs.«421277_j6313601925238_1_alg».proof.Proof.Gen.Pre_finite_inputs
import proofs.«421277_j6313601925238_1_alg».proof.Proof.HostChains
import Idealize.ShloMosaic.Lib.ValueIdx
import Idealize.ShloMosaic.Lib.ReduceAll
import Idealize.ShloMosaic.Lib.StableHlo.Predicate

set_option maxRecDepth 16384

noncomputable section

namespace Cert.KernelIdeal.Range

open Idealize.ShloMosaic Idealize.ShloMosaic.TcCoe Idealize.ShloMosaic.ValueIdx Idealize.SL.Sem
open Cert.KernelIdeal Cert.KernelIdeal.Host

/-- Every edge's source id, read signed, lies in `[-100000, 100000)`. -/
def InRange (src : IVec S1600000 32) : Prop :=
  ∀ e : Fin 1600000, -100000 ≤ (src (ix1 e)).toInt ∧ (src (ix1 e)).toInt < 100000

/-- The scalar shape has one index. -/
instance subsingleton_scalar_idx : Subsingleton Cert.Pre_finite_inputs.S_.Idx := ⟨fun a b => funext fun d => d.elim0⟩

theorem inRange_of_pre (m : (ℓ : Loc nD τ sig) → Buf (Elt Ideal) ℓ) (h : Cert.Pre_KernelIdeal m) (c : Dev nD) :
    InRange (m ((c.tc : Thread nD τ).loc main_arg8)) := by
  intro e
  have h0 := congrFun (h c) ValueIdx.ix0
  unfold Cert.Pre_finite_inputs.fn at h0
  dsimp only at h0
  unfold Cert.Pre_finite_inputs.fn_part1 at h0
  dsimp only at h0
  unfold Cert.Pre_finite_inputs.fn_part2 at h0
  dsimp only at h0
  -- the outermost conjunction: its right half is the all-edges test of the source ids
  have h1 := (IntOp.andi_eq_one.1 h0).2
  have h2 := Host.reduce_andi_all _ _ _ _ _ h1 (ix1 e)
  obtain ⟨ha, hb⟩ := IntOp.andi_eq_one.1 h2
  have hlo := IntOp.cmpi_sge.1 ha
  have hhi := IntOp.cmpi_slt.1 hb
  have e1 : (4294867296#32 : BitVec 32).toInt = -100000 := by decide
  have e2 : (100000#32 : BitVec 32).toInt = 100000 := by decide
  exact ⟨e1 ▸ hlo, e2 ▸ hhi⟩

/-- A left fold by `and` over one-bit words, from 1 and through 1s only, is 1. -/
theorem foldl_andi_of_all_one {ι : Type} (f : ι → BitVec 1) :
    ∀ (l : List ι) (init : BitVec 1), init = 1#1 → (∀ n ∈ l, f n = 1#1) →
      l.foldl (fun r n => IntOp.andi r (f n)) init = 1#1
  | [], _, hi, _ => hi
  | a :: l, init, hi, hl => by
    rw [List.foldl_cons]
    refine foldl_andi_of_all_one f l _ ?_ (fun n hn => hl n (List.mem_cons.2 (Or.inr hn)))
    rw [hi, hl a (List.mem_cons.2 (Or.inl rfl))]
    rfl

/-- A reduction by `and` from 1 of an array whose every bit is 1 is 1 at every result index. -/
theorem reduce_andi_of_all_one {s t u : Shape} {axes : List (Fin s.rank)} (x : s.Idx → BitVec 1) (init : u.Idx → BitVec 1)
    (hr : s.ReducesTo axes t) (hu : 0 < u.numel) (hinit : init (Shape.Idx.first hu) = 1#1) (hx : ∀ i, x i = 1#1)
    (j : t.Idx) : Host.reduce IntOp.andi x init hr hu j = 1#1 := by
  rw [Host.reduce_eq_foldl]
  exact foldl_andi_of_all_one x _ _ hinit (fun n _ => hx n)

/-- A broadcast of an array of 1 bits reads 1 everywhere. -/
theorem bcast_all_one {s : Shape} (t : Shape) (dims : Fin s.rank → Fin t.rank) (hb : s.BroadcastsInDim t dims) (x : IVec s 1)
    (hx : ∀ j, x j = 1#1) (i : t.Idx) : broadcastInDim t dims hb x i = 1#1 := hx _

/-- The wrapped id at an edge: the source id plus the node count when it is negative, else the source id. -/
theorem wrapped_apply (src : IVec S1600000 32) (k : S1600000.Idx) :
    wrapped src k = Scalar.select (IntOp.cmpi .slt (src k) 0#32) (IntOp.addi (src k) 100000#32) (src k) := rfl

/-- With the source id in `[-100000, 100000)` the wrapped id lies in `[0, 99999]`. -/
theorem wrapped_range (src : IVec S1600000 32) (h : InRange src) (k : S1600000.Idx) :
    0 ≤ (wrapped src k).toInt ∧ (wrapped src k).toInt ≤ 99999 := by
  obtain ⟨hlo, hhi⟩ : -100000 ≤ (src k).toInt ∧ (src k).toInt < 100000 := by
    rw [eq_ix1 k]; exact h (k 0)
  have z : (0#32 : BitVec 32).toInt = 0 := by decide
  rw [wrapped_apply]
  by_cases hc : IntOp.cmpi .slt (src k) 0#32 = 1#1
  · have hneg := IntOp.cmpi_slt.1 hc
    rw [z] at hneg
    rw [hc, select_one]
    have e1 : (100000#32 : BitVec 32).toInt = 100000 := by decide
    have e2 : (IntOp.addi (src k) 100000#32).toInt = ((src k).toInt + 100000).bmod (2 ^ 32) := by
      show (src k + 100000#32).toInt = _
      rw [BitVec.toInt_add, e1]
    have e3 : ((src k).toInt + 100000).bmod (2 ^ 32) = (src k).toInt + 100000 :=
      Int.bmod_eq_of_le_mul_two (by omega) (by omega)
    rw [e2, e3]
    omega
  · have hneg : ¬ (src k).toInt < (0#32 : BitVec 32).toInt := fun hh => hc (IntOp.cmpi_slt.2 hh)
    rw [z] at hneg
    rw [eq_zero_of_ne_one hc, select_zero]
    omega

/-- A start-index entry is the wrapped id of some edge. -/
theorem startRows_read (src : IVec S1600000 32) (i : S1600000x1.Idx) : ∃ k : S1600000.Idx, startRows src i = wrapped src k := by
  unfold startRows broadcastInDim
  exact ⟨_, rfl⟩

/-- Under the range hypothesis every edge's wrapped id passes the in-range test. -/
theorem rowsInRange_one (src : IVec S1600000 32) (h : InRange src) (j : S1600000.Idx) : rowsInRange src j = 1#1 := by
  unfold rowsInRange
  refine reduce_andi_of_all_one _ _ _ _ rfl (fun i => ?_) j
  show IntOp.andi (IntOp.cmpi .sge (startRows src i) 0#32) (IntOp.cmpi .sle (startRows src i) 99999#32) = 1#1
  obtain ⟨k, hk⟩ := startRows_read src i
  obtain ⟨hlo, hhi⟩ := wrapped_range src h k
  have z : (0#32 : BitVec 32).toInt = 0 := by decide
  have t : (99999#32 : BitVec 32).toInt = 99999 := by decide
  rw [hk]
  exact IntOp.andi_eq_one.2 ⟨IntOp.cmpi_sge.2 (by rw [z]; exact hlo), IntOp.cmpi_sle.2 (by rw [t]; exact hhi)⟩

theorem takeRows_eq_gather {F : FTy → Type} [FloatOps F] (y : FVec F S100000x128 .f32) (src : IVec S1600000 32) (h : InRange src) :
    takeRows y src = Host.gather gather_S100000x128_S1600000x1_S1600000x128_1_0_n_n_0_1_1128 y (startRows src) := by
  funext i
  unfold takeRows
  rw [select_apply, bcast_all_one _ _ _ _ (rowsInRange_one src h), select_one]

end Cert.KernelIdeal.Range

end
-- ==== Proof.KernelTerm.lean ====
/-
  The kernel program's result as one term of its ten argument arrays, stage by stage.

  `weightCol`: the node weights as a column. `firstOut`: the features, each row scaled by its node's weight, times the
  shared matrix. `firstAgg`: those rows gathered along the edges and summed into the destination nodes.
  `hiddenRows`: plus the shared bias, positive part. `headsMatrix`: the two heads' matrices side by side.
  `secondOut`, `secondAgg`: the same step on the hidden rows with the joined matrix. `kernelTerm`: the left half
  plus its bias, plus the noise times the exponential of the right half plus its bias.
-/
import proofs.«421277_j6313601925238_1_alg».proof.Proof.HostChains
import proofs.«421277_j6313601925238_1_alg».proof.Proof.Layers

set_option maxRecDepth 16384

noncomputable section

namespace Cert.KernelIdeal.Host

open Idealize.ShloMosaic Cert.KernelIdeal Cert.Gcn Cert.Lib
open Cert.KernelIdeal.Facts₀ Cert.KernelIdeal.Facts

def weightCol (x8 : IVec S1600000 32) : FVec Ideal S100000x1 .f32 :=
  shapeCast S100000x1 (nodeWeight (F := Ideal) x8) shapeCasts_S100000_S100000x1

def firstOut (x0 : FVec Ideal S100000x256 .f32) (x1 : FVec Ideal S256x128 .f32) (x8 : IVec S1600000 32) :
    FVec Ideal S100000x128 .f32 :=
  scaledProj x0 (weightCol x8) x1

def firstAgg (x0 : FVec Ideal S100000x256 .f32) (x1 : FVec Ideal S256x128 .f32) (x8 x9 : IVec S1600000 32) :
    FVec Ideal S100000x128 .f32 :=
  aggregate x9 (Host.gather gather_S100000x128_S1600000x1_S1600000x128_1_0_n_n_0_1_1128 (firstOut x0 x1 x8) (startRows x8))

def hiddenRows (x0 : FVec Ideal S100000x256 .f32) (x1 : FVec Ideal S256x128 .f32) (x2 : FVec Ideal S128 .f32)
    (x8 x9 : IVec S1600000 32) : FVec Ideal S100000x128 .f32 :=
  reluArr (firstAgg x0 x1 x8 x9) (shapeCast S1x128 x2 shapeCasts_S128_S1x128) (Ideal.ofBits .f32 0x00000000#32)

def headsMatrix (x3 x5 : FVec Ideal S128x64 .f32) : FVec Ideal S128x128 .f32 :=
  concatenate S128x128 1 [⟨S128x64, x3⟩, ⟨S128x64, x5⟩] concatenates_S128x64_S128x64_S128x128_d1

def secondOut (x0 : FVec Ideal S100000x256 .f32) (x1 : FVec Ideal S256x128 .f32) (x2 : FVec Ideal S128 .f32)
    (x3 x5 : FVec Ideal S128x64 .f32) (x8 x9 : IVec S1600000 32) : FVec Ideal S100000x128 .f32 :=
  scaledProj (hiddenRows x0 x1 x2 x8 x9) (weightCol x8) (headsMatrix x3 x5)

def secondAgg (x0 : FVec Ideal S100000x256 .f32) (x1 : FVec Ideal S256x128 .f32) (x2 : FVec Ideal S128 .f32)
    (x3 x5 : FVec Ideal S128x64 .f32) (x8 x9 : IVec S1600000 32) : FVec Ideal S100000x128 .f32 :=
  aggregate x9 (Host.gather gather_S100000x128_S1600000x1_S1600000x128_1_0_n_n_0_1_1128 (secondOut x0 x1 x2 x3 x5 x8 x9) (startRows x8))

def kernelTerm (x0 : FVec Ideal S100000x256 .f32) (x1 : FVec Ideal S256x128 .f32) (x2 : FVec Ideal S128 .f32)
    (x3 : FVec Ideal S128x64 .f32) (x4 : FVec Ideal S64 .f32) (x5 : FVec Ideal S128x64 .f32) (x6 : FVec Ideal S64 .f32)
    (x7 : FVec Ideal S100000x64 .f32) (x8 x9 : IVec S1600000 32) : FVec Ideal S100000x64 .f32 :=
  reparam (secondAgg x0 x1 x2 x3 x5 x8 x9) (shapeCast S1x64 x4 shapeCasts_S64_S1x64) (shapeCast S1x64 x6 shapeCasts_S64_S1x64) x7

end Cert.KernelIdeal.Host

end
-- ==== Proof.KernelValue.lean ====
/-
  The kernel program's result buffer ends at `kernelTerm` of the argument arrays, when every source id is in range.

  The last launch's output array is the sample of what it finds; what it finds is the second aggregate, itself the
  scatter-add of the rows taken from the second launch's output; and so on back to the launch memory. With every
  source id in range no taken row is replaced, so each masked take is the plain row gather.
-/
import proofs.«421277_j6313601925238_1_alg».proof.Proof.FirstTransform
import proofs.«421277_j6313601925238_1_alg».proof.Proof.SecondTransform
import proofs.«421277_j6313601925238_1_alg».proof.Proof.Combine
import proofs.«421277_j6313601925238_1_alg».proof.Proof.Boundaries
import proofs.«421277_j6313601925238_1_alg».proof.Proof.IndexRange
import proofs.«421277_j6313601925238_1_alg».proof.Proof.KernelTerm

set_option maxRecDepth 16384

noncomputable section

namespace Cert.KernelIdeal.Value

open Idealize.ShloMosaic Idealize.ShloMosaic.TcCoe Idealize.SL.Sem
open Cert.KernelIdeal Cert.KernelIdeal.Gen Cert.KernelIdeal.Host Cert.KernelIdeal.Closed Cert.KernelIdeal.Boundary
open Cert.KernelIdeal.Range Cert.Gcn Cert.Lib

variable (m : (ℓ : Loc nD τ sig) → Buf (Elt Ideal) ℓ) (ρ : Dev nD → PrngReg)

theorem result_value (c : Dev nD) (h : InRange (m ((c.tc : Thread nD τ).loc main_arg8))) :
    W8 m ρ c (Proc.devRef .tc main_v23)
      = kernelTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [result_eq, combine_final (V7 m ρ) c, entry2_agg, entry2_biasLeft, entry2_biasRight, entry2_noise,
    takeRows_eq_gather _ _ h, second_final (V4 m ρ) c, entry1_agg, entry1_weight, entry1_matrix, entry1_bias,
    takeRows_eq_gather _ _ h, first_final (V1 m ρ) c, entry0_feat, entry0_weight, entry0_matrix]
  rfl

end Cert.KernelIdeal.Value

end
-- ==== Proof.LibScaleSum.lean ====
/-
  A nonnegative real factor and a finite sum on the extended reals.

  The extended reals' product does not distribute over the sum in general (the sum of `⊤` and `⊥` is `⊥`), but it
  does for a factor that is a nonnegative real. So such a factor moves out of a finite sum, and a sum of products
  whose left factors were all scaled by it is the sum of the unscaled products, scaled.
-/
import Mathlib.Data.EReal.Operations
import Mathlib.Data.EReal.Inv
import Mathlib.Algebra.BigOperators.Group.Finset.Basic
import Mathlib.Data.Fintype.Basic
import Mathlib.Data.Fintype.BigOperators

namespace Cert.Lib

open scoped BigOperators

/-- A factor `s` with `0 ≤ s` and `s ≠ ⊤` moves out of a finite sum of extended reals: by induction on the index
    set, each step by the distributive law that holds for such a factor. -/
theorem sum_mul_of_nonneg_of_ne_top {ι : Type} (t : Finset ι) (f : ι → EReal) {s : EReal} (h0 : 0 ≤ s) (ht : s ≠ ⊤) :
    (∑ k ∈ t, f k) * s = ∑ k ∈ t, f k * s := by
  classical
  induction t using Finset.induction_on with
  | empty => simp
  | insert a t ha ih =>
    rw [Finset.sum_insert ha, Finset.sum_insert ha, EReal.right_distrib_of_nonneg_of_ne_top h0 ht, ih]

/-- Scaling every left factor of a sum of products over `Fin K` by a nonnegative real `s` scales the sum:
    `(a k * s) * w k = (a k * w k) * s` termwise, and `s` moves out of the sum. -/
theorem sum_scaled_mul_eq {K : ℕ} (a w : Fin K → EReal) {s : EReal} (h0 : 0 ≤ s) (ht : s ≠ ⊤) :
    ∑ k : Fin K, (a k * s) * w k = (∑ k : Fin K, a k * w k) * s := by
  rw [sum_mul_of_nonneg_of_ne_top Finset.univ _ h0 ht]
  exact Finset.sum_congr rfl fun k _ => mul_right_comm (a k) s (w k)

end Cert.Lib
-- ==== Proof.BridgeFirst.lean ====
/-
  The first layer of the kernel program against the reference's, stage by stage, on the extended reals.

  A node's weight is `1 / max d 1` for its out-degree `d`: a real number in `[0, 1]` whatever `d` is (the quotient by
  the infinity is `0`). The kernel scales each feature row by the weight BEFORE the matrix product, the reference scales
  the product's row AFTER it; a nonnegative real factor moves out of the sum over the contracted axis, so the two
  arrays are one. The edges' start rows are the same integer computation in both programs, so the gathered rows,
  their sums into the destination nodes, and the biased positive part agree as whole arrays.
-/
import proofs.«421277_j6313601925238_1_alg».proof.Proof.Gen.ReferenceIdeal.Read
import proofs.«421277_j6313601925238_1_alg».proof.Proof.KernelTerm
import proofs.«421277_j6313601925238_1_alg».proof.Proof.LibScaleSum
import proofs.«421277_j6313601925238_1_alg».proof.Proof.LibKeepdims
import proofs.«421277_j6313601925238_1_alg».proof.Proof.LibRowOps
import Idealize.ShloMosaic.Lib.ValueIdx
import Idealize.ShloMosaic.Lib.Pipeline.Value

set_option maxRecDepth 16384

noncomputable section

namespace Cert.Bridge

open Idealize.ShloMosaic Idealize.ShloMosaic.ValueIdx
open Cert.Gcn Cert.Lib Cert.KernelIdeal.Host
open Cert.ReferenceIdeal.Read

/-- The word of the float `1.0` denotes the real one. -/
theorem one_word : Ideal.ofBits .f32 0x3F800000#32 = 1 := by
  simp [Ideal.ofBits, Ideal.ieee, -EReal.coe_mul]; norm_num

/-- The reciprocal of an extended real that is at least one is a nonnegative real. -/
theorem inv_of_one_le {y : EReal} (hy : 1 ≤ y) : 0 ≤ Ideal.div 1 y ∧ Ideal.div 1 y ≠ ⊤ := by
  have hy0 : y ≠ 0 := fun h => by rw [h] at hy; exact absurd hy (by norm_num)
  unfold Ideal.div
  rw [if_neg hy0, one_mul]
  induction y using EReal.rec with
  | bot => exact absurd (le_bot_iff.mp hy) (EReal.coe_ne_bot 1)
  | coe r =>
    have hr : (1 : ℝ) ≤ r := by exact_mod_cast hy
    rw [← EReal.coe_inv]
    exact ⟨EReal.coe_nonneg.mpr (inv_nonneg.mpr (by linarith)), EReal.coe_ne_top _⟩
  | top => rw [EReal.inv_top]; exact ⟨le_refl _, EReal.zero_ne_top⟩

/-- The kernel program's node weights are the reference's: the same operations of the source ids. -/
theorem weight_eq (x8 : IVec Cert.KernelIdeal.S1600000 32) : nodeWeight (F := Ideal) x8 = val_main_v7 (F := Ideal) x8 := by
  unfold nodeWeight val_main_v7 val_main_v6 val_main_v5 val_main_v4 val_main_v3 val_main_v2 val_main_v1 val_main_v0
    val_main_cst val_main_cst_0 val_main_cst_1 val_main_cst_2
  rfl

/-- Every node weight is a nonnegative real. -/
theorem weight_real (x8 : IVec Cert.KernelIdeal.S1600000 32) (r : Fin 100000) :
    0 ≤ nodeWeight (F := Ideal) x8 (ix1 r) ∧ nodeWeight (F := Ideal) x8 (ix1 r) ≠ ⊤ := by
  rw [weight_eq, val_main_v7_apply, val_main_v6_apply, val_main_cst_2_apply, val_main_v5_apply, val_main_v4_apply,
    val_main_cst_1_apply]
  simp only [Ideal.hostDivf_def, Ideal.maximumf_def, Ideal.ofBits_def, one_word]
  exact inv_of_one_le (le_max_right _ _)

/-- The weight column at row `r` is node `r`'s weight. -/
theorem weightCol_apply (x8 : IVec Cert.KernelIdeal.S1600000 32) (r : Fin 100000) :
    weightCol x8 (ix2 r (0 : Fin 1)) = nodeWeight (F := Ideal) x8 (ix1 r) :=
  shapeCast_a_a1_apply _ _ r 0

/-- The reference's row-broadcast weights at `(r, j)` are node `r`'s weight (the 128-column layer). -/
theorem weightBcast128_apply (x8 : IVec Cert.KernelIdeal.S1600000 32) (r : Fin 100000) (j : Fin 128) :
    val_main_v10 (F := Ideal) x8 (ix2 r j) = nodeWeight (F := Ideal) x8 (ix1 r) := by
  rw [val_main_v10_apply, val_main_v9_apply, weight_eq]
  exact congrArg _ (funext fun a => Fin.ext (by match a with | ⟨0, _⟩ => rfl))

/-- The first transform: rows scaled before the product (the kernel) or after it (the reference). -/
theorem firstOut_eq (x0 : FVec Ideal Cert.KernelIdeal.S100000x256 .f32) (x1 : FVec Ideal Cert.KernelIdeal.S256x128 .f32)
    (x8 : IVec Cert.KernelIdeal.S1600000 32) : firstOut x0 x1 x8 = val_main_v11 (F := Ideal) x0 x1 x8 := by
  funext i
  obtain ⟨r, j, rfl⟩ : ∃ (r : Fin 100000) (j : Fin 128), i = ix2 r j := ⟨i 0, i 1, eq_ix2 i⟩
  obtain ⟨h0, ht⟩ := weight_real x8 r
  rw [val_main_v11_apply]
  show scaledProj x0 (weightCol x8) x1 (ix2 r j) = val_main_v8 (F := Ideal) x0 x1 (ix2 r j) * val_main_v10 (F := Ideal) x8 (ix2 r j)
  have el : ∀ k : Fin 256, lidx_main_v8 (ix2 r j) k = ix2 r k := fun k =>
    funext fun a => Fin.ext (by match a with | ⟨0, _⟩ => rfl | ⟨1, _⟩ => rfl)
  have er : ∀ k : Fin 256, ridx_main_v8 (ix2 r j) k = ix2 k j := fun k =>
    funext fun a => Fin.ext (by match a with | ⟨0, _⟩ => rfl | ⟨1, _⟩ => rfl)
  have hsum : ∑ k : Fin 256, x0 (lidx_main_v8 (ix2 r j) k) * x1 (ridx_main_v8 (ix2 r j) k)
      = ∑ k : Fin 256, x0 (ix2 r k) * x1 (ix2 k j) := Finset.sum_congr rfl fun k _ => by rw [el k, er k]
  rw [scaledProj_apply, weightCol_apply, weightBcast128_apply, sum_scaled_mul_eq _ _ h0 ht, val_main_v8_apply, hsum]

/-- The edges' start rows are one integer computation in both programs. -/
theorem wrapped_eq (x8 : IVec Cert.KernelIdeal.S1600000 32) : wrapped x8 = val_main_v16 (F := Ideal) x8 := by
  unfold wrapped val_main_v16 val_main_v13 val_main_v15 val_main_v12 val_main_v14 val_main_c val_main_c_3
  rfl

theorem startRows_eq (x8 : IVec Cert.KernelIdeal.S1600000 32) : startRows x8 = val_main_v17 (F := Ideal) x8 := by
  unfold startRows val_main_v17
  rw [wrapped_eq]

/-- The first aggregate. -/
theorem firstAgg_eq (x0 : FVec Ideal Cert.KernelIdeal.S100000x256 .f32) (x1 : FVec Ideal Cert.KernelIdeal.S256x128 .f32)
    (x8 x9 : IVec Cert.KernelIdeal.S1600000 32) : firstAgg x0 x1 x8 x9 = val_main_v21 (F := Ideal) x0 x1 x8 x9 := by
  unfold firstAgg
  rw [firstOut_eq, startRows_eq]
  rfl

/-- The hidden layer: the aggregate plus the shared bias, positive part. -/
theorem hiddenRows_eq (x0 : FVec Ideal Cert.KernelIdeal.S100000x256 .f32) (x1 : FVec Ideal Cert.KernelIdeal.S256x128 .f32)
    (x2 : FVec Ideal Cert.KernelIdeal.S128 .f32) (x8 x9 : IVec Cert.KernelIdeal.S1600000 32) :
    hiddenRows x0 x1 x2 x8 x9 = val_main_v25 (F := Ideal) x0 x1 x2 x8 x9 := by
  unfold hiddenRows
  rw [firstAgg_eq]
  exact (host_biasRelu_eq (M := 100000) (K := 128) (val_main_v21 (F := Ideal) x0 x1 x8 x9) x2 _ _ _ _ 0x00000000#32).symm

end Cert.Bridge

end
-- ==== Proof.LibScatterRows.lean ====
import Idealize.ShloMosaic.PureOps.Ideal
import Idealize.ShloMosaic.Lib.ValueIdx

/-!
# A host scatter-add of rows, read at an index

`out = operand.at[idx].add(updates)` with `operand : [R, C]`, one start row per update row (`idx : [N, 1]`, read
signed) and `updates : [N, C]`: update row `n` is added into operand row `idx n` when that row exists and is dropped
otherwise. At the ideal instance the result at `(r, c)` is the operand's entry plus the sum, over the update rows
`n` whose start row is `r`, of `updates (n, c)`. The same for vectors (`operand : [R]`, `updates : [N]`).
-/

noncomputable section

namespace Idealize.ShloMosaic.ScatterRows

open Idealize.ShloMosaic Idealize.ShloMosaic.ValueIdx

variable {R C N : Nat}

/-- The dimension numbers of a row scatter: window axis 1 of the updates onto axis 1 of the operand, axis 0 inserted
    and addressed by the one index component. -/
abbrev dims2 (wf : ScatterDims.WF (⟨2, ![R, C]⟩ : Shape) ⟨2, ![N, 1]⟩ ⟨2, ![N, C]⟩ [1] [0] [0] 1) :
    ScatterDims (⟨2, ![R, C]⟩ : Shape) ⟨2, ![N, 1]⟩ ⟨2, ![N, C]⟩ where
  updateWindowDims := [1]
  insertedWindowDims := [0]
  scatterDimsToOperandDims := [0]
  indexVectorDim := 1
  wf := wf

variable (wf : ScatterDims.WF (⟨2, ![R, C]⟩ : Shape) ⟨2, ![N, 1]⟩ ⟨2, ![N, C]⟩ [1] [0] [0] 1)

theorem start0 {w : Nat} (n : Fin N) (q : Fin C) (idx : IVec ⟨2, ![N, 1]⟩ w) :
    (dims2 wf).start (ix2 n q) idx 0 = (idx (ix2 n 0)).toInt := by
  unfold ScatterDims.start
  rw [dif_pos (show (0 : Fin 2) ∈ [(0 : Fin 2)] by decide)]
  refine congrArg (fun k => (idx k).toInt) (funext fun b => Fin.ext ?_)
  match b with
  | ⟨0, _⟩ => rfl
  | ⟨1, _⟩ => rfl

theorem start1 {w : Nat} (n : Fin N) (q : Fin C) (idx : IVec ⟨2, ![N, 1]⟩ w) :
    (dims2 wf).start (ix2 n q) idx 1 = 0 := by
  unfold ScatterDims.start
  rw [dif_neg (show ¬ (1 : Fin 2) ∈ [(0 : Fin 2)] by decide)]

theorem window0 (n : Fin N) (q : Fin C) : (dims2 wf).window (ix2 n q) 0 = 0 := by
  have h : ¬ (0 : Fin (⟨2, ![R, C]⟩ : Shape).rank) ∈ (dims2 wf).sKept :=
    (show ¬ (0 : Fin 2) ∈ (List.finRange 2).filter (· ∉ [(0 : Fin 2)]) by decide)
  unfold ScatterDims.window
  exact dif_neg h

theorem window1 (n : Fin N) (q : Fin C) : (dims2 wf).window (ix2 n q) 1 = q.val := by
  have h : (1 : Fin (⟨2, ![R, C]⟩ : Shape).rank) ∈ (dims2 wf).sKept :=
    (show (1 : Fin 2) ∈ (List.finRange 2).filter (· ∉ [(0 : Fin 2)]) by decide)
  unfold ScatterDims.window
  exact (dif_pos h).trans rfl

/-- Update `(n, q)` lands on operand entry `(r, c)` exactly when its start row, read signed, is `r` and its column is
    `c`; a start row outside the operand lands nowhere. -/
theorem resultIdx_iff {w : Nat} (n : Fin N) (q : Fin C) (idx : IVec ⟨2, ![N, 1]⟩ w) (r : Fin R) (c : Fin C) :
    (dims2 wf).resultIdx? (ix2 n q) idx = some (ix2 r c) ↔ (idx (ix2 n 0)).toInt = (r.val : Int) ∧ q = c := by
  have hs0 := start0 wf n q idx
  have hs1 := start1 wf n q idx
  have hw0 := window0 wf n q
  have hw1 := window1 wf n q
  have hr := r.isLt
  have hq := q.isLt
  unfold ScatterDims.resultIdx?
  split
  · rename_i h
    rw [Option.some.injEq]
    constructor
    · intro e
      have e0 : ((dims2 wf).start (ix2 n q) idx 0 + ((dims2 wf).window (ix2 n q) 0 : Nat)).toNat = r.val :=
        congrArg (fun f : (⟨2, ![R, C]⟩ : Shape).Idx => (f 0).val) e
      have e1 : ((dims2 wf).start (ix2 n q) idx 1 + ((dims2 wf).window (ix2 n q) 1 : Nat)).toNat = c.val :=
        congrArg (fun f : (⟨2, ![R, C]⟩ : Shape).Idx => (f 1).val) e
      have h0 := (h 0).1
      rw [hs0, hw0] at e0 h0
      rw [hs1, hw1] at e1
      exact ⟨by omega, Fin.ext (by omega)⟩
    · rintro ⟨e0, rfl⟩
      funext a
      apply Fin.ext
      match a with
      | ⟨0, _⟩ =>
        show ((dims2 wf).start (ix2 n q) idx 0 + ((dims2 wf).window (ix2 n q) 0 : Nat)).toNat = r.val
        rw [hs0, hw0, e0]; omega
      | ⟨1, _⟩ =>
        show ((dims2 wf).start (ix2 n q) idx 1 + ((dims2 wf).window (ix2 n q) 1 : Nat)).toNat = q.val
        rw [hs1, hw1]; omega
  · rename_i h
    constructor
    · intro e; cases e
    · rintro ⟨e0, rfl⟩
      refine absurd (fun a => ?_) h
      match a with
      | ⟨0, _⟩ =>
        show (0 : Int) ≤ (dims2 wf).start (ix2 n q) idx 0 + ((dims2 wf).window (ix2 n q) 0 : Nat)
          ∧ (dims2 wf).start (ix2 n q) idx 0 + ((dims2 wf).window (ix2 n q) 0 : Nat) < (R : Nat)
        rw [hs0, hw0, e0]; omega
      | ⟨1, _⟩ =>
        show (0 : Int) ≤ (dims2 wf).start (ix2 n q) idx 1 + ((dims2 wf).window (ix2 n q) 1 : Nat)
          ∧ (dims2 wf).start (ix2 n q) idx 1 + ((dims2 wf).window (ix2 n q) 1 : Nat) < (C : Nat)
        rw [hs1, hw1]; omega

/-- THE ROW SCATTER-ADD AT AN INDEX: the operand's entry plus the sum over the update rows whose start row is `r`
    of their entry in column `c`. -/
theorem scatterAdd_apply {w : Nat} (x : (⟨2, ![R, C]⟩ : Shape).Idx → EReal) (idx : IVec ⟨2, ![N, 1]⟩ w)
    (upd : (⟨2, ![N, C]⟩ : Shape).Idx → EReal) (r : Fin R) (c : Fin C) :
    Ideal.hostScatterAdd (dims2 wf) x idx upd (ix2 r c)
      = x (ix2 r c) + ∑ n : Fin N, if (idx (ix2 n 0)).toInt = (r.val : Int) then upd (ix2 n c) else 0 := by
  unfold Ideal.hostScatterAdd
  refine congrArg (x (ix2 r c) + ·) ?_
  rw [Finset.sum_filter, sum_idx2]
  refine Finset.sum_congr rfl fun n _ => ?_
  simp only [resultIdx_iff wf]
  by_cases hn : (idx (ix2 n 0)).toInt = (r.val : Int)
  · simp only [hn, true_and, if_true]
    rw [Finset.sum_ite_eq' Finset.univ c (fun q => upd (ix2 n q)), if_pos (Finset.mem_univ c)]
  · simp only [hn, false_and, if_false, Finset.sum_const_zero]

/-! ## The same for vectors -/

/-- The dimension numbers of an entry scatter into a vector: no window axis, the operand's one axis inserted and
    addressed by the one index component. -/
abbrev dims1 (wf : ScatterDims.WF (⟨1, ![R]⟩ : Shape) ⟨2, ![N, 1]⟩ ⟨1, ![N]⟩ [] [0] [0] 1) :
    ScatterDims (⟨1, ![R]⟩ : Shape) ⟨2, ![N, 1]⟩ ⟨1, ![N]⟩ where
  updateWindowDims := []
  insertedWindowDims := [0]
  scatterDimsToOperandDims := [0]
  indexVectorDim := 1
  wf := wf

variable (wf1 : ScatterDims.WF (⟨1, ![R]⟩ : Shape) ⟨2, ![N, 1]⟩ ⟨1, ![N]⟩ [] [0] [0] 1)

theorem vstart {w : Nat} (n : Fin N) (idx : IVec ⟨2, ![N, 1]⟩ w) :
    (dims1 wf1).start (ix1 n) idx 0 = (idx (ix2 n 0)).toInt := by
  unfold ScatterDims.start
  rw [dif_pos (show (0 : Fin 1) ∈ [(0 : Fin 1)] by decide)]
  refine congrArg (fun k => (idx k).toInt) (funext fun b => Fin.ext ?_)
  match b with
  | ⟨0, _⟩ => rfl
  | ⟨1, _⟩ => rfl

theorem vwindow (n : Fin N) : (dims1 wf1).window (ix1 n) 0 = 0 := by
  have h : ¬ (0 : Fin (⟨1, ![R]⟩ : Shape).rank) ∈ (dims1 wf1).sKept :=
    (show ¬ (0 : Fin 1) ∈ (List.finRange 1).filter (· ∉ [(0 : Fin 1)]) by decide)
  unfold ScatterDims.window
  exact dif_neg h

/-- Update `n` lands on operand entry `r` exactly when its start, read signed, is `r`. -/
theorem vresultIdx_iff {w : Nat} (n : Fin N) (idx : IVec ⟨2, ![N, 1]⟩ w) (r : Fin R) :
    (dims1 wf1).resultIdx? (ix1 n) idx = some (ix1 r) ↔ (idx (ix2 n 0)).toInt = (r.val : Int) := by
  have hs0 := vstart wf1 n idx
  have hw0 := vwindow wf1 n
  have hr := r.isLt
  unfold ScatterDims.resultIdx?
  split
  · rename_i h
    rw [Option.some.injEq]
    constructor
    · intro e
      have e0 : ((dims1 wf1).start (ix1 n) idx 0 + ((dims1 wf1).window (ix1 n) 0 : Nat)).toNat = r.val :=
        congrArg (fun f : (⟨1, ![R]⟩ : Shape).Idx => (f 0).val) e
      have h0 := (h 0).1
      rw [hs0, hw0] at e0 h0
      omega
    · intro e0
      funext a
      apply Fin.ext
      match a with
      | ⟨0, _⟩ =>
        show ((dims1 wf1).start (ix1 n) idx 0 + ((dims1 wf1).window (ix1 n) 0 : Nat)).toNat = r.val
        rw [hs0, hw0, e0]; omega
  · rename_i h
    constructor
    · intro e; cases e
    · intro e0
      refine absurd (fun a => ?_) h
      match a with
      | ⟨0, _⟩ =>
        show (0 : Int) ≤ (dims1 wf1).start (ix1 n) idx 0 + ((dims1 wf1).window (ix1 n) 0 : Nat)
          ∧ (dims1 wf1).start (ix1 n) idx 0 + ((dims1 wf1).window (ix1 n) 0 : Nat) < (R : Nat)
        rw [hs0, hw0, e0]; omega

/-- A rank-1 index set is its one coordinate range. -/
def idxEquiv1 {n : Nat} : (⟨1, ![n]⟩ : Shape).Idx ≃ Fin n where
  toFun i := i 0
  invFun := ix1
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- THE ENTRY SCATTER-ADD AT AN INDEX: the operand's entry plus the sum of the updates whose start is `r`. -/
theorem vscatterAdd_apply {w : Nat} (x : (⟨1, ![R]⟩ : Shape).Idx → EReal) (idx : IVec ⟨2, ![N, 1]⟩ w)
    (upd : (⟨1, ![N]⟩ : Shape).Idx → EReal) (r : Fin R) :
    Ideal.hostScatterAdd (dims1 wf1) x idx upd (ix1 r)
      = x (ix1 r) + ∑ n : Fin N, if (idx (ix2 n 0)).toInt = (r.val : Int) then upd (ix1 n) else 0 := by
  unfold Ideal.hostScatterAdd
  refine congrArg (x (ix1 r) + ·) ?_
  rw [Finset.sum_filter, sum_idx1]
  refine Finset.sum_congr rfl fun n _ => ?_
  simp only [vresultIdx_iff wf1]

end Idealize.ShloMosaic.ScatterRows

end
-- ==== Proof.LibGatherRows.lean ====
import Idealize.ShloMosaic.PureOps.Ideal
import Idealize.ShloMosaic.Lib.ValueIdx

/-!
# A host gather of rows, read at an index

`out = operand[idx]` with `operand : [R, C]`, one start row per result row (`idx : [N, 1]`, read signed) and
`out : [N, C]`: result row `n` is the operand's row at the start index `idx n` clamped into `[0, R - 1]`, column by
column. So the row read depends only on the start index and on the number of rows, not on the number of columns.
-/

noncomputable section

namespace Idealize.ShloMosaic.GatherRows

open Idealize.ShloMosaic Idealize.ShloMosaic.ValueIdx

variable {α : Type} {R C N : Nat}

/-- The dimension numbers of a row gather: the result's axis 1 an offset axis over the operand's axis 1, the
    operand's axis 0 collapsed and addressed by the one index component. -/
abbrev dims (wf : GatherDims.WF (⟨2, ![R, C]⟩ : Shape) ⟨2, ![N, 1]⟩ ⟨2, ![N, C]⟩ [1] [0] [] [0] [] 1 ![1, C]) :
    GatherDims (⟨2, ![R, C]⟩ : Shape) ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

variable (wf : GatherDims.WF (⟨2, ![R, C]⟩ : Shape) ⟨2, ![N, 1]⟩ ⟨2, ![N, C]⟩ [1] [0] [] [0] [] 1 ![1, C])

/-- The row a start index selects among `R` rows: the index read signed, negative to `0`, capped at `R - 1`. -/
def rowOf (R : Nat) (hR : 0 < R) {w : Nat} (b : BitVec w) : Fin R := ⟨min b.toInt.toNat (R - 1), by omega⟩

theorem start0 {w : Nat} (n : Fin N) (q : Fin C) (idx : IVec ⟨2, ![N, 1]⟩ w) :
    (dims wf).start (ix2 n q) idx 0 = min (idx (ix2 n 0)).toInt.toNat (R - 1) := by
  unfold GatherDims.start
  rw [dif_pos (show (0 : Fin 2) ∈ [(0 : Fin 2)] by decide)]
  refine congrArg (fun k => min (idx k).toInt.toNat (R - 1)) (funext fun b => Fin.ext ?_)
  match b with
  | ⟨0, _⟩ => rfl
  | ⟨1, _⟩ => rfl

theorem start1 {w : Nat} (n : Fin N) (q : Fin C) (idx : IVec ⟨2, ![N, 1]⟩ w) :
    (dims wf).start (ix2 n q) idx 1 = 0 := by
  unfold GatherDims.start
  rw [dif_neg (show ¬ (1 : Fin 2) ∈ [(0 : Fin 2)] by decide)]

theorem off0 (n : Fin N) (q : Fin C) : (dims wf).offCoord (ix2 n q) 0 = 0 :=
  (dims wf).offCoord_eq_zero _ _ (show ¬ (0 : Fin 2) ∈ (List.finRange 2).filter (· ∉ [(0 : Fin 2)] ++ []) by decide)

theorem off1 (n : Fin N) (q : Fin C) : (dims wf).offCoord (ix2 n q) 1 = q.val := by
  have h : (1 : Fin (⟨2, ![R, C]⟩ : Shape).rank) ∈ (dims wf).sKept :=
    (show (1 : Fin 2) ∈ (List.finRange 2).filter (· ∉ [(0 : Fin 2)] ++ []) by decide)
  unfold GatherDims.offCoord
  exact (dif_pos h).trans rfl

/-- THE ROW GATHER AT AN INDEX: result `(n, q)` is the operand at the row the start index `idx n` selects, column `q`. -/
theorem gather_apply (hR : 0 < R) {w : Nat} (x : (⟨2, ![R, C]⟩ : Shape).Idx → α) (idx : IVec ⟨2, ![N, 1]⟩ w)
    (n : Fin N) (q : Fin C) :
    Host.gather (dims wf) x idx (ix2 n q) = x (ix2 (rowOf R hR (idx (ix2 n 0))) q) := by
  unfold Host.gather
  congr 1
  funext a
  refine Fin.ext ?_
  match a with
  | ⟨0, _⟩ =>
    show (dims wf).start (ix2 n q) idx 0 + (dims wf).batchCoord (ix2 n q) 0 + (dims wf).offCoord (ix2 n q) 0 = _
    rw [start0, GatherDims.batchCoord_eq_zero _ _ _ List.not_mem_nil, off0]
    rfl
  | ⟨1, _⟩ =>
    show (dims wf).start (ix2 n q) idx 1 + (dims wf).batchCoord (ix2 n q) 1 + (dims wf).offCoord (ix2 n q) 1 = _
    rw [start1, GatherDims.batchCoord_eq_zero _ _ _ List.not_mem_nil, off1]
    show 0 + 0 + q.val = q.val
    omega

end Idealize.ShloMosaic.GatherRows

end
-- ==== Proof.LibRowAggregate.lean ====
import Idealize.ShloMosaic.PureOps.Ideal
import Idealize.ShloMosaic.Lib.ValueIdx
import proofs.«421277_j6313601925238_1_alg».proof.Proof.LibScatterRows
import proofs.«421277_j6313601925238_1_alg».proof.Proof.LibGatherRows

/-!
# Gathered rows summed into destination rows, read at an index

`out = operand.at[dst].add(Y[src])` with `operand, Y : [R, C]`, one destination row and one start row per update
(`dst, src : [N, 1]`): at `(r, c)` the operand's entry plus, over the updates whose destination row is `r`, the entry
of `Y` in column `c` of the row the update's start index selects. Stated for any dimension-number records that ARE the
row scatter's and the row gather's, so that it is proved once over variable extents.
-/

noncomputable section

namespace Idealize.ShloMosaic.RowAggregate

open Idealize.ShloMosaic Idealize.ShloMosaic.ValueIdx

variable {R C N : Nat}

theorem scatter_gather_apply (hR : 0 < R)
    (swf : ScatterDims.WF (⟨2, ![R, C]⟩ : Shape) ⟨2, ![N, 1]⟩ ⟨2, ![N, C]⟩ [1] [0] [0] 1)
    (gwf : GatherDims.WF (⟨2, ![R, C]⟩ : Shape) ⟨2, ![N, 1]⟩ ⟨2, ![N, C]⟩ [1] [0] [] [0] [] 1 ![1, C])
    (sd : ScatterDims (⟨2, ![R, C]⟩ : Shape) ⟨2, ![N, 1]⟩ ⟨2, ![N, C]⟩) (hs : sd = ScatterRows.dims2 swf)
    (gd : GatherDims (⟨2, ![R, C]⟩ : Shape) ⟨2, ![N, 1]⟩ ⟨2, ![N, C]⟩) (hg : gd = GatherRows.dims gwf)
    {w₁ w₂ : Nat} (Z Y : FVec Ideal ⟨2, ![R, C]⟩ .f32) (dst : IVec ⟨2, ![N, 1]⟩ w₁) (src : IVec ⟨2, ![N, 1]⟩ w₂)
    (r : Fin R) (c : Fin C) :
    Host.scatterAdd sd Z dst (Host.gather gd Y src) (ix2 r c)
      = Z (ix2 r c) + ∑ n : Fin N, if (dst (ix2 n 0)).toInt = (r.val : Int)
          then Y (ix2 (GatherRows.rowOf R hR (src (ix2 n 0))) c) else 0 := by
  subst hs hg
  show Ideal.hostScatterAdd (ScatterRows.dims2 swf) Z dst (Host.gather (GatherRows.dims gwf) Y src) (ix2 r c) = _
  rw [ScatterRows.scatterAdd_apply]
  refine congrArg (Z (ix2 r c) + ·) (Finset.sum_congr rfl fun n _ => ?_)
  rw [GatherRows.gather_apply gwf hR]

end Idealize.ShloMosaic.RowAggregate

end
-- ==== Proof.BridgeSecond.lean ====
/-
  The second layer and the sample, kernel program against reference.

  The kernel multiplies the hidden rows by the two heads' matrices joined side by side and aggregates all 128 columns
  at once; the reference does each head's 64 columns separately. Column `q` of the left half of the joined product is
  the first head's column `q`, column `64 + q` the second head's. A row gather reads whole rows and a row scatter-add
  sums whole rows, both addressed by integer arrays the two programs share, so the aggregates agree column by column;
  the sample is then the same expression of the same numbers.
-/
import proofs.«421277_j6313601925238_1_alg».proof.Proof.BridgeFirst
import proofs.«421277_j6313601925238_1_alg».proof.Proof.LibScatterRows
import proofs.«421277_j6313601925238_1_alg».proof.Proof.LibGatherRows
import proofs.«421277_j6313601925238_1_alg».proof.Proof.LibRowAggregate
import proofs.«421277_j6313601925238_1_alg».proof.Proof.LibRowLayers

set_option maxRecDepth 16384

noncomputable section

namespace Cert.Bridge

open Idealize.ShloMosaic Idealize.ShloMosaic.ValueIdx
open Cert.Gcn Cert.Lib Cert.Rows Cert.KernelIdeal.Host
open Cert.ReferenceIdeal.Read

/-! ## The joined matrix -/

theorem headsMatrix_lo (x3 x5 : FVec Ideal Cert.KernelIdeal.S128x64 .f32) (k : Fin 128) (q : Fin 64) :
    headsMatrix x3 x5 (ix2 k (lo q)) = x3 (ix2 k q) := by
  unfold headsMatrix
  exact concatenate_pair_apply_left (t := Cert.KernelIdeal.S128x128) (1 : Fin 2) x3 x5 _ (ix2 k (lo q)) rfl (ix2 k q)
    (fun b => by match b with | ⟨0, _⟩ => rfl | ⟨1, _⟩ => rfl)

theorem headsMatrix_hi (x3 x5 : FVec Ideal Cert.KernelIdeal.S128x64 .f32) (k : Fin 128) (q : Fin 64) :
    headsMatrix x3 x5 (ix2 k (hi q)) = x5 (ix2 k q) := by
  unfold headsMatrix
  exact concatenate_pair_apply_right (t := Cert.KernelIdeal.S128x128) (1 : Fin 2) x3 x5 _ (ix2 k (hi q)) rfl rfl (ix2 k q)
    (fun b hb => by match b with | ⟨0, _⟩ => rfl | ⟨1, _⟩ => exact absurd rfl hb)
    (by show q.val + 64 = 64 + q.val; omega)

/-! ## The second transform, half by half -/

theorem weightBcast64a_apply (x8 : IVec Cert.KernelIdeal.S1600000 32) (r : Fin 100000) (q : Fin 64) :
    val_main_v28 (F := Ideal) x8 (ix2 r q) = nodeWeight (F := Ideal) x8 (ix1 r) := by
  rw [val_main_v28_apply, val_main_v27_apply, weight_eq]
  exact congrArg _ (funext fun a => Fin.ext (by match a with | ⟨0, _⟩ => rfl))

theorem weightBcast64b_apply (x8 : IVec Cert.KernelIdeal.S1600000 32) (r : Fin 100000) (q : Fin 64) :
    val_main_v45 (F := Ideal) x8 (ix2 r q) = nodeWeight (F := Ideal) x8 (ix1 r) := by
  rw [val_main_v45_apply, val_main_v44_apply, weight_eq]
  exact congrArg _ (funext fun a => Fin.ext (by match a with | ⟨0, _⟩ => rfl))

variable (x0 : FVec Ideal Cert.KernelIdeal.S100000x256 .f32) (x1 : FVec Ideal Cert.KernelIdeal.S256x128 .f32)
  (x2 : FVec Ideal Cert.KernelIdeal.S128 .f32) (x3 : FVec Ideal Cert.KernelIdeal.S128x64 .f32)
  (x4 : FVec Ideal Cert.KernelIdeal.S64 .f32) (x5 : FVec Ideal Cert.KernelIdeal.S128x64 .f32)
  (x6 : FVec Ideal Cert.KernelIdeal.S64 .f32) (x7 : FVec Ideal Cert.KernelIdeal.S100000x64 .f32)
  (x8 x9 : IVec Cert.KernelIdeal.S1600000 32)

/-- The left half of the second transform is the first head's scaled product. -/
theorem secondOut_lo (p : Fin 100000) (q : Fin 64) :
    secondOut x0 x1 x2 x3 x5 x8 x9 (ix2 p (lo q)) = val_main_v29 (F := Ideal) x0 x1 x2 x3 x8 x9 (ix2 p q) := by
  obtain ⟨h0, ht⟩ := weight_real x8 p
  rw [val_main_v29_apply]
  show scaledProj (hiddenRows x0 x1 x2 x8 x9) (weightCol x8) (headsMatrix x3 x5) (ix2 p (lo q))
    = val_main_v26 (F := Ideal) x0 x1 x2 x3 x8 x9 (ix2 p q) * val_main_v28 (F := Ideal) x8 (ix2 p q)
  rw [scaledProj_apply, weightCol_apply, weightBcast64a_apply]
  simp only [headsMatrix_lo]
  have el : ∀ k : Fin 128, lidx_main_v26 (ix2 p q) k = ix2 p k := fun k =>
    funext fun a => Fin.ext (by match a with | ⟨0, _⟩ => rfl | ⟨1, _⟩ => rfl)
  have er : ∀ k : Fin 128, ridx_main_v26 (ix2 p q) k = ix2 k q := fun k =>
    funext fun a => Fin.ext (by match a with | ⟨0, _⟩ => rfl | ⟨1, _⟩ => rfl)
  have hsum : ∑ k : Fin 128, val_main_v25 (F := Ideal) x0 x1 x2 x8 x9 (lidx_main_v26 (ix2 p q) k) * x3 (ridx_main_v26 (ix2 p q) k)
      = ∑ k : Fin 128, val_main_v25 (F := Ideal) x0 x1 x2 x8 x9 (ix2 p k) * x3 (ix2 k q) :=
    Finset.sum_congr rfl fun k _ => by rw [el k, er k]
  rw [sum_scaled_mul_eq (fun k => hiddenRows x0 x1 x2 x8 x9 (ix2 p k)) (fun k => x3 (ix2 k q)) h0 ht, hiddenRows_eq,
    val_main_v26_apply, hsum]

/-- The right half of the second transform is the second head's scaled product. -/
theorem secondOut_hi (p : Fin 100000) (q : Fin 64) :
    secondOut x0 x1 x2 x3 x5 x8 x9 (ix2 p (hi q)) = val_main_v46 (F := Ideal) x0 x1 x2 x5 x8 x9 (ix2 p q) := by
  obtain ⟨h0, ht⟩ := weight_real x8 p
  rw [val_main_v46_apply]
  show scaledProj (hiddenRows x0 x1 x2 x8 x9) (weightCol x8) (headsMatrix x3 x5) (ix2 p (hi q))
    = val_main_v43 (F := Ideal) x0 x1 x2 x5 x8 x9 (ix2 p q) * val_main_v45 (F := Ideal) x8 (ix2 p q)
  rw [scaledProj_apply, weightCol_apply, weightBcast64b_apply]
  simp only [headsMatrix_hi]
  have el : ∀ k : Fin 128, lidx_main_v43 (ix2 p q) k = ix2 p k := fun k =>
    funext fun a => Fin.ext (by match a with | ⟨0, _⟩ => rfl | ⟨1, _⟩ => rfl)
  have er : ∀ k : Fin 128, ridx_main_v43 (ix2 p q) k = ix2 k q := fun k =>
    funext fun a => Fin.ext (by match a with | ⟨0, _⟩ => rfl | ⟨1, _⟩ => rfl)
  have hsum : ∑ k : Fin 128, val_main_v25 (F := Ideal) x0 x1 x2 x8 x9 (lidx_main_v43 (ix2 p q) k) * x5 (ridx_main_v43 (ix2 p q) k)
      = ∑ k : Fin 128, val_main_v25 (F := Ideal) x0 x1 x2 x8 x9 (ix2 p k) * x5 (ix2 k q) :=
    Finset.sum_congr rfl fun k _ => by rw [el k, er k]
  rw [sum_scaled_mul_eq (fun k => hiddenRows x0 x1 x2 x8 x9 (ix2 p k)) (fun k => x5 (ix2 k q)) h0 ht, hiddenRows_eq,
    val_main_v43_apply, hsum]

/-! ## The aggregates, column by column -/

/-- The zero array the aggregate starts from, at an index. -/
theorem zeros128_apply (r : Fin 100000) (c : Fin 128) :
    (broadcastInDim Cert.KernelIdeal.S100000x128 ![] Cert.KernelIdeal.Facts₀.bcast_S_S100000x128
      (constant (F := Ideal) Cert.KernelIdeal.S_ .f32 0x00000000#32) : FVec Ideal Cert.KernelIdeal.S100000x128 .f32) (ix2 r c)
      = Ideal.ofBits .f32 0x00000000#32 := rfl

/-- A row scatter-add of gathered rows, at `(r, c)`: zero plus, over the edges whose destination is `r`, the gathered
    array's entry in column `c` of the row the edge's start index selects. -/
theorem aggregate_apply (Y : FVec Ideal Cert.KernelIdeal.S100000x128 .f32) (r : Fin 100000) (c : Fin 128) :
    aggregate x9 (Host.gather Cert.KernelIdeal.gather_S100000x128_S1600000x1_S1600000x128_1_0_n_n_0_1_1128 Y (startRows x8)) (ix2 r c)
      = Ideal.ofBits .f32 0x00000000#32 + ∑ n : Fin 1600000,
          if ((broadcastInDim Cert.KernelIdeal.S1600000x1 ![0] Cert.KernelIdeal.Facts₀.bcast_S1600000_S1600000x1_0 x9 : IVec Cert.KernelIdeal.S1600000x1 32) (ix2 n 0)).toInt = (r.val : Int)
          then Y (ix2 (GatherRows.rowOf 100000 (by norm_num) (startRows x8 (ix2 n 0))) c) else 0 := by
  unfold aggregate
  rw [RowAggregate.scatter_gather_apply (R := 100000) (C := 128) (N := 1600000) (by norm_num)
    Cert.KernelIdeal.scatter_S100000x128_S1600000x1_S1600000x128_1_0_0_1.wf
    Cert.KernelIdeal.gather_S100000x128_S1600000x1_S1600000x128_1_0_n_n_0_1_1128.wf
    Cert.KernelIdeal.scatter_S100000x128_S1600000x1_S1600000x128_1_0_0_1 rfl
    Cert.KernelIdeal.gather_S100000x128_S1600000x1_S1600000x128_1_0_n_n_0_1_1128 rfl,
    zeros128_apply]

end Cert.Bridge

end
-- ==== Proof.BridgeSample.lean ====
/-
  The two heads' aggregates and the sample.

  Each head's aggregate in the reference, at `(r, q)`: zero plus, over the edges whose destination is `r`, that head's
  scaled product at column `q` of the row the edge's start index selects. The kernel program's one aggregate of 128
  columns has, in column `q` of its left half and of its right half, exactly these sums; adding the biases and combining
  with the noise is then the same expression on both sides.
-/
import proofs.«421277_j6313601925238_1_alg».proof.Proof.BridgeSecond

set_option maxRecDepth 16384

noncomputable section

namespace Cert.Bridge

open Idealize.ShloMosaic Idealize.ShloMosaic.ValueIdx
open Cert.Gcn Cert.Lib Cert.Rows Cert.KernelIdeal.Host
open Cert.ReferenceIdeal.Read

variable (x0 : FVec Ideal Cert.KernelIdeal.S100000x256 .f32) (x1 : FVec Ideal Cert.KernelIdeal.S256x128 .f32)
  (x2 : FVec Ideal Cert.KernelIdeal.S128 .f32) (x3 : FVec Ideal Cert.KernelIdeal.S128x64 .f32)
  (x4 : FVec Ideal Cert.KernelIdeal.S64 .f32) (x5 : FVec Ideal Cert.KernelIdeal.S128x64 .f32)
  (x6 : FVec Ideal Cert.KernelIdeal.S64 .f32) (x7 : FVec Ideal Cert.KernelIdeal.S100000x64 .f32)
  (x8 x9 : IVec Cert.KernelIdeal.S1600000 32)

theorem headLeft_rows : startRows x8 = val_main_v35 (F := Ideal) x8 := by
  unfold startRows val_main_v35 wrapped val_main_v34 val_main_v31 val_main_v33 val_main_v30 val_main_v32 val_main_c_5 val_main_c_6
  rfl

/-- The first head's aggregate in the reference, read at an index. -/
theorem headLeft_apply (r : Fin 100000) (q : Fin 64) :
    val_main_v39 (F := Ideal) x0 x1 x2 x3 x8 x9 (ix2 r q)
      = Ideal.ofBits .f32 0x00000000#32 + ∑ n : Fin 1600000,
          if ((broadcastInDim Cert.KernelIdeal.S1600000x1 ![0] Cert.KernelIdeal.Facts₀.bcast_S1600000_S1600000x1_0 x9 : IVec Cert.KernelIdeal.S1600000x1 32) (ix2 n 0)).toInt = (r.val : Int)
          then val_main_v29 (F := Ideal) x0 x1 x2 x3 x8 x9 (ix2 (GatherRows.rowOf 100000 (by norm_num) (startRows x8 (ix2 n 0))) q) else 0 := by
  unfold val_main_v39 val_main_v36 val_main_v37 val_main_v38 val_main_cst_7
  rw [← headLeft_rows,
    RowAggregate.scatter_gather_apply (R := 100000) (C := 64) (N := 1600000) (by norm_num)
      Cert.ReferenceIdeal.scatter_S100000x64_S1600000x1_S1600000x64_1_0_0_1.wf
      Cert.ReferenceIdeal.gather_S100000x64_S1600000x1_S1600000x64_1_0_n_n_0_1_164.wf
      Cert.ReferenceIdeal.scatter_S100000x64_S1600000x1_S1600000x64_1_0_0_1 rfl
      Cert.ReferenceIdeal.gather_S100000x64_S1600000x1_S1600000x64_1_0_n_n_0_1_164 rfl]
  rfl

theorem headRight_rows : startRows x8 = val_main_v52 (F := Ideal) x8 := by
  unfold startRows val_main_v52 wrapped val_main_v51 val_main_v48 val_main_v50 val_main_v47 val_main_v49 val_main_c_8 val_main_c_9
  rfl

/-- The second head's aggregate in the reference, read at an index. -/
theorem headRight_apply (r : Fin 100000) (q : Fin 64) :
    val_main_v56 (F := Ideal) x0 x1 x2 x5 x8 x9 (ix2 r q)
      = Ideal.ofBits .f32 0x00000000#32 + ∑ n : Fin 1600000,
          if ((broadcastInDim Cert.KernelIdeal.S1600000x1 ![0] Cert.KernelIdeal.Facts₀.bcast_S1600000_S1600000x1_0 x9 : IVec Cert.KernelIdeal.S1600000x1 32) (ix2 n 0)).toInt = (r.val : Int)
          then val_main_v46 (F := Ideal) x0 x1 x2 x5 x8 x9 (ix2 (GatherRows.rowOf 100000 (by norm_num) (startRows x8 (ix2 n 0))) q) else 0 := by
  unfold val_main_v56 val_main_v53 val_main_v54 val_main_v55 val_main_cst_10
  rw [← headRight_rows,
    RowAggregate.scatter_gather_apply (R := 100000) (C := 64) (N := 1600000) (by norm_num)
      Cert.ReferenceIdeal.scatter_S100000x64_S1600000x1_S1600000x64_1_0_0_1.wf
      Cert.ReferenceIdeal.gather_S100000x64_S1600000x1_S1600000x64_1_0_n_n_0_1_164.wf
      Cert.ReferenceIdeal.scatter_S100000x64_S1600000x1_S1600000x64_1_0_0_1 rfl
      Cert.ReferenceIdeal.gather_S100000x64_S1600000x1_S1600000x64_1_0_n_n_0_1_164 rfl]
  rfl

/-- Column `q` of the left half of the kernel program's aggregate is the first head's. -/
theorem secondAgg_lo (r : Fin 100000) (q : Fin 64) :
    secondAgg x0 x1 x2 x3 x5 x8 x9 (ix2 r (lo q)) = val_main_v39 (F := Ideal) x0 x1 x2 x3 x8 x9 (ix2 r q) := by
  unfold secondAgg
  rw [aggregate_apply, headLeft_apply]
  refine congrArg₂ (· + ·) rfl (Finset.sum_congr rfl fun n _ => ?_)
  exact if_congr Iff.rfl (secondOut_lo x0 x1 x2 x3 x5 x8 x9 _ q) rfl

/-- Column `q` of the right half of the kernel program's aggregate is the second head's. -/
theorem secondAgg_hi (r : Fin 100000) (q : Fin 64) :
    secondAgg x0 x1 x2 x3 x5 x8 x9 (ix2 r (hi q)) = val_main_v56 (F := Ideal) x0 x1 x2 x5 x8 x9 (ix2 r q) := by
  unfold secondAgg
  rw [aggregate_apply, headRight_apply]
  refine congrArg₂ (· + ·) rfl (Finset.sum_congr rfl fun n _ => ?_)
  exact if_congr Iff.rfl (secondOut_hi x0 x1 x2 x3 x5 x8 x9 _ q) rfl

/-- The reference's broadcast of the first head's bias at `(r, q)` is the bias's entry `q`. -/
theorem biasLeft_apply (r : Fin 100000) (q : Fin 64) : val_main_v41 (F := Ideal) x4 (ix2 r q) = x4 (ix1 q) := by
  rw [val_main_v41_apply, val_main_v40_apply]
  exact congrArg _ (funext fun a => Fin.ext (by match a with | ⟨0, _⟩ => rfl))

/-- The reference's broadcast of the second head's bias at `(r, q)` is the bias's entry `q`. -/
theorem biasRight_apply (r : Fin 100000) (q : Fin 64) : val_main_v58 (F := Ideal) x6 (ix2 r q) = x6 (ix1 q) := by
  rw [val_main_v58_apply, val_main_v57_apply]
  exact congrArg _ (funext fun a => Fin.ext (by match a with | ⟨0, _⟩ => rfl))

/-- THE TWO PROGRAMS' RESULTS ARE ONE FUNCTION of the ten argument arrays. -/
theorem kernelTerm_eq :
    kernelTerm x0 x1 x2 x3 x4 x5 x6 x7 x8 x9 = val_main_v62 (F := Ideal) x0 x1 x2 x3 x4 x5 x6 x7 x8 x9 := by
  funext i
  obtain ⟨r, q, rfl⟩ : ∃ (r : Fin 100000) (q : Fin 64), i = ix2 r q := ⟨i 0, i 1, eq_ix2 i⟩
  unfold kernelTerm
  rw [reparam_apply, secondAgg_lo, secondAgg_hi, rowOfVec_apply, rowOfVec_apply,
    val_main_v62_apply, val_main_v42_apply, val_main_v61_apply, val_main_v60_apply, val_main_v59_apply,
    biasLeft_apply, biasRight_apply]
  simp only [Ideal.addf_def, Ideal.mulf_def, Ideal.hostUnary_exp_def]

end Cert.Bridge

end
-- ==== Proof.lean ====
/-
  A two-layer graph convolution with a reparameterised sample, as three launches with host gathers and scatter-adds
  between them, against its plain reference: the two programs compute one function of their ten arguments on the
  extended reals, when every float input is finite and every source id lies in `[-100000, 100000)`.

  Each layer scales a node's feature row by the node's weight `1 / max d 1` (`d` its out-degree), multiplies by the
  layer's matrix, gathers the rows along the edges and sums them into the destination nodes. The kernel program
  scales before the product, the reference after it; the weight is a nonnegative real, and such a factor moves out
  of the sum over the contracted axis. The kernel program runs both heads of the second layer as one product with the
  two matrices side by side; a row gather and a row scatter-add act on whole rows, so each half of the joined aggregate
  is the matching head's. The kernel program's row take replaces the rows of out-of-range source ids by a not-a-number
  pattern where the reference's indexing clamps them; with every id in range (negative ids wrapped once, as both
  programs do) nothing is replaced and the two takes are the same row gather. The finiteness of the float inputs is
  never used: no step needs more than commutativity, associativity and the distributive law for a nonnegative real.

  The frames of the two kernel programs are the generated ones; the reference's frame is its generated run with the
  result dropped. The kernel program's value is read off a second call of the launch theorem over the generated
  segments, each launch's output array by the cover of its row blocks, each host stretch by its operations' composed
  term.
-/
import proofs.«421277_j6313601925238_1_alg».proof.Defs
import proofs.«421277_j6313601925238_1_alg».proof.Proof.Gen.Kernel
import proofs.«421277_j6313601925238_1_alg».proof.Proof.Gen.Kernel.Skeleton
import proofs.«421277_j6313601925238_1_alg».proof.Proof.Gen.Kernel.Launch
import proofs.«421277_j6313601925238_1_alg».proof.Proof.Gen.Kernel.Points
import proofs.«421277_j6313601925238_1_alg».proof.Proof.Gen.Kernel.Frame
import proofs.«421277_j6313601925238_1_alg».proof.Proof.Gen.KernelIdeal
import proofs.«421277_j6313601925238_1_alg».proof.Proof.Gen.KernelIdeal.Skeleton
import proofs.«421277_j6313601925238_1_alg».proof.Proof.Gen.KernelIdeal.Launch
import proofs.«421277_j6313601925238_1_alg».proof.Proof.Gen.KernelIdeal.Points
import proofs.«421277_j6313601925238_1_alg».proof.Proof.Gen.KernelIdeal.Frame
import proofs.«421277_j6313601925238_1_alg».proof.Proof.Gen.ReferenceIdeal
import proofs.«421277_j6313601925238_1_alg».proof.Proof.Gen.ReferenceIdeal.Run
import proofs.«421277_j6313601925238_1_alg».proof.Proof.Gen.ReferenceIdeal.Read
import proofs.«421277_j6313601925238_1_alg».proof.Proof.Gen.Pre_finite_inputs
import proofs.«421277_j6313601925238_1_alg».proof.Proof.KernelRun
import proofs.«421277_j6313601925238_1_alg».proof.Proof.KernelValue
import proofs.«421277_j6313601925238_1_alg».proof.Proof.BridgeSample
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealizing pass rewrote no operation. -/
theorem preserves : Cert.preserves_Kernel_KernelIdeal := trivial

/-- Both programs end with their result at the kernel program's term of the kernel program's arguments: the kernel
    program by its run and its value under the index range the precondition gives, the reference by its run, the
    arguments' agreement, and the equality of the two terms. -/
theorem algebraic : Cert.algebraic_KernelIdeal_ReferenceIdeal := by
  intro m ρ m' ρ' hpre hagree
  refine ⟨fun c => Cert.KernelIdeal.Host.kernelTerm
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9)), ?_, ?_⟩
  · exact (θ_run Cert.KernelIdeal.defs _ _).mono
      (fun r h c => ⟨(h c).1.trans
        (Cert.KernelIdeal.Value.result_value m ρ c (Cert.KernelIdeal.Range.inRange_of_pre m hpre c)), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v62_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
    exact (Cert.Bridge.kernelTerm_eq _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
